-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3073x1024 : S_.BroadcastsInDim S3073x1024 (![] : Fin 0 → Fin S3073x1024.rank)
  reducesTo_S3073x1024_S_d0_1 : S3073x1024.ReducesTo [0, 1] S_
  bcast_S_S3073 : S_.BroadcastsInDim S3073 (![] : Fin 0 → Fin S3073.rank)
  reducesTo_S3073_S_d0 : S3073.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16384x1024 .f32) (main_arg1 : FVec F S3073x1024 .f32) (main_arg2 : FVec F S3073 .f32) (main_arg3 : FVec F S1024x1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S3073x1024 .f32 := Host.absf main_arg1
  let main_cst_0 : FVec F S_ .f32 := constant S_ .f32 0x7F800000#32
  let main_v5 : FVec F S3073x1024 .f32 := broadcastInDim S3073x1024 ![] bcast_S_S3073x1024 main_cst_0
  let main_v6 : IVec S3073x1024 1 := cmpf .olt main_v4 main_v5
  let main_c_1 : IVec S_ 1 := constantI S_ 1 1#1
  let main_v7 : IVec S_ 1 := (fun x v => Host.reduce IntOp.andi x v reducesTo_S3073x1024_S_d0_1 h_S_) main_v6 main_c_1
  let main_v8 : IVec S_ 1 := andi main_v3 main_v7
  let main_v9 : FVec F S3073 .f32 := Host.absf main_arg2
  let main_cst_2 : FVec F S_ .f32 := constant S_ .f32 0x7F800000#32
  let main_v10 : FVec F S3073 .f32 := broadcastInDim S3073 ![] bcast_S_S3073 main_cst_2
  let main_v11 : IVec S3073 1 := cmpf .olt main_v9 main_v10
  let main_c_3 : IVec S_ 1 := constantI S_ 1 1#1
  let main_v12 : IVec S_ 1 := (fun x v => Host.reduce IntOp.andi x v reducesTo_S3073_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩
abbrev S127x1024 : Shape := ⟨2, ![127, 1024]⟩
abbrev S128x1024 : Shape := ⟨2, ![128, 1024]⟩
abbrev S127 : Shape := ⟨1, ![127]⟩
abbrev S128 : Shape := ⟨1, ![128]⟩
abbrev S1024x128 : Shape := ⟨2, ![1024, 128]⟩
abbrev S256x1024 : Shape := ⟨2, ![256, 1024]⟩
abbrev S256x128 : Shape := ⟨2, ![256, 128]⟩
abbrev S1x128 : Shape := ⟨2, ![1, 128]⟩
abbrev S256x1 : Shape := ⟨2, ![256, 1]⟩
abbrev S256 : Shape := ⟨1, ![256]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S3073x1024, .f32⟩
  | .hbm, ⟨2, _⟩ => ⟨S3073, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1, .f32⟩
  | .hbm, ⟨13, _⟩ => ⟨S_, .f32⟩
  | .hbm, ⟨14, _⟩ => ⟨S127x1024, .f32⟩
  | .hbm, ⟨15, _⟩ => ⟨S128x1024, .f32⟩
  | .hbm, ⟨16, _⟩ => ⟨S_, .f32⟩
  | .hbm, ⟨17, _⟩ => ⟨S127, .f32⟩
  | .hbm, ⟨18, _⟩ => ⟨S128, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x128, .f32⟩
  | .hbm, ⟨26, _⟩ => ⟨S1024x128, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1024, .f32⟩
  | .local _ .vmem, ⟨6, _⟩ => ⟨S1024, .f32⟩
  | .local _ .vmem, ⟨7, _⟩ => ⟨S128, .f32⟩
  | .local _ .vmem, ⟨8, _⟩ => ⟨S1024x1024, .bf16⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S3073x1024_S1024x1024_0_0 : S3073x1024.Slices ![0, 0] S1024x1024
  slices_S3073x1024_S1024x1024_1024_0 : S3073x1024.Slices ![1024, 0] S1024x1024
  slices_S3073x1024_S1024x1024_2048_0 : S3073x1024.Slices ![2048, 0] S1024x1024
  slices_S3073x1024_S1x1024_3072_0 : S3073x1024.Slices ![3072, 0] S1x1024
  slices_S3073_S1024_0 : S3073.Slices ![0] S1024
  slices_S3073_S1024_1024 : S3073.Slices ![1024] S1024
  slices_S3073_S1024_2048 : S3073.Slices ![2048] S1024
  slices_S3073_S1_3072 : S3073.Slices ![3072] S1
  bcast_S_S127x1024 : S_.BroadcastsInDim S127x1024 (![] : Fin 0 → Fin S127x1024.rank)
  concatenates_S1x1024_S127x1024_S128x1024_d0 : Shape.Concatenates [S1x1024, S127x1024] S128x1024 0
  bcast_S_S127 : S_.BroadcastsInDim S127 (![] : Fin 0 → Fin S127.rank)
  concatenates_S1_S127_S128_d0 : Shape.Concatenates [S1, S127] S128 0
  transposes_S1024x1024_S1024x1024_1_0 : S1024x1024.Transposes [1, 0] S1024x1024
  bitsLt_bf16_f32 : FTy.bits .bf16 < FTy.bits .f32
  transposes_S128x1024_S1024x128_1_0 : S128x1024.Transposes [1, 0] S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S256x128 : S1x128.Broadcasts S256x128
  slices_S256x128_o0_0_S256x1 : S256x128.Slices ![0, 0] S256x1
  reduces_S256x1024_S256 : S256x1024.Reduces [1] S256
  shapeCasts_S256_S256x1 : S256.ShapeCasts S256x1
  broadcasts_S256x1_S256x1024 : S256x1.Broadcasts S256x1024
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S256x1024_S1024x1024_S256x1024_1_0_0_1_n_n_wf : DotDims.WF S256x1024 S1024x1024 S256x1024 [1] [0] [0] [1] [] []
  dot_S256x1024_S1024x128_S256x128_1_0_0_1_n_n_wf : DotDims.WF S256x1024 S1024x128 S256x128 [1] [0] [0] [1] [] []
  dot_S256x1024_S256x1024_S1024x1024_0_0_1_1_n_n_wf : DotDims.WF S256x1024 S256x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S16384x1024.size a
  hwx1_5 : ∀ i : grid1.Coords, EltTy.bits .f32 = 32 ∨ (Rect.block (s := S16384x1024) S512x1024.size (cc1_transform_5 i) (hinb1_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1024x1024.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S3073x1024 : Shape := ⟨2, ![3073, 1024]⟩
abbrev S3073 : Shape := ⟨1, ![3073]⟩
abbrev S1024x1024 : Shape := ⟨2, ![1024, 1024]⟩
abbrev S1024 : Shape := ⟨1, ![1024]⟩
abbrev S1024x3073 : Shape := ⟨2, ![1024, 3073]⟩
abbrev S16384x3073 : Shape := ⟨2, ![16384, 3073]⟩
abbrev S1x3073 : Shape := ⟨2, ![1, 3073]⟩
abbrev S16384x1 : Shape := ⟨2, ![16384, 1]⟩
abbrev S_ : Shape := ⟨0, ![]⟩
abbrev S16384 : Shape := ⟨1, ![16384]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3073x1024, .f32⟩
  | .hbm, ⟨2, _⟩ => ⟨S3073, .f32⟩
  | .hbm, ⟨3, _⟩ => ⟨S1024x1024, .f32⟩
  | .hbm, ⟨4, _⟩ => ⟨S1024, .f32⟩
  | .hbm, ⟨5, _⟩ => ⟨S1024x3073, .f32⟩
  | .hbm, ⟨6, _⟩ => ⟨S16384x3073, .f32⟩
  | .hbm, ⟨7, _⟩ => ⟨S1x3073, .f32⟩
  | .hbm, ⟨8, _⟩ => ⟨S16384x3073, .f32⟩
  | .hbm, ⟨9, _⟩ => ⟨S16384x3073, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S1024x1024, .f32⟩
  | .hbm, ⟨53, _⟩ => ⟨S_, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1024x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]

class Facts₀ : Prop where
  transposes_S3073x1024_S1024x3073_1_0 : S3073x1024.Transposes [1, 0] S1024x3073
  bcast_S3073_S1x3073_1 : S3073.BroadcastsInDim S1x3073 (![1] : Fin 1 → Fin S1x3073.rank)
  bcast_S1x3073_S16384x3073_0_1 : S1x3073.BroadcastsInDim S16384x3073 (![0, 1] : Fin 2 → Fin S16384x3073.rank)
  slices_S16384x3073_S16384x1024_0_0 : S16384x3073.Slices ![0, 0] S16384x1024
  slices_S16384x3073_S16384x1024_0_1024 : S16384x3073.Slices ![0, 1024] S16384x1024
  slices_S16384x3073_S16384x1024_0_2048 : S16384x3073.Slices ![0, 2048] S16384x1024
  slices_S16384x3073_S16384x1_0_3072 : S16384x3073.Slices ![0, 3072] S16384x1
  bcast_S_S16384x1 : S_.BroadcastsInDim S16384x1 (![] : Fin 0 → Fin S16384x1.rank)
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024x1024 : S_.BroadcastsInDim S1024x1024 (![] : Fin 0 → Fin S1024x1024.rank)
  dot_S16384x1024_S1024x3073_S16384x3073_1_0_0_1_n_n_wf : DotDims.WF S16384x1024 S1024x3073 S16384x3073 [1] [0] [0] [1] [] []
  dot_S16384x1024_S1024x1024_S16384x1024_1_0_0_1_n_n_wf : DotDims.WF S16384x1024 S1024x1024 S16384x1024 [1] [0] [0] [1] [] []
  dot_S16384x1024_S16384x1024_S1024x1024_0_0_1_1_n_n_wf : DotDims.WF S16384x1024 S16384x1024 S1024x1024 [0] [0] [1] [1] [] []

variable [Facts₀]

def dot_S16384x1024_S1024x3073_S16384x3073_1_0_0_1_n_n : DotDims S16384x1024 S1024x3073 S16384x3073 where
  lhsContracting := [1]
  rhsContracting := [0]
  lhsNonContracting := [0]
  rhsNonContracting := [1]
  lhsBatch := []
  rhsBatch := []
  wf := dot_S16384x1024_S1024x3073_S16384x3073_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S16384x1024_S1024x1024_0_0_1_1_n_n : DotDims S16384x1024 S16384x1024 S1024x1024 where
  lhsContracting := [0]
  rhsContracting := [0]
  lhsNonContracting := [1]
  rhsNonContracting := [1]
  lhsBatch := []
  rhsBatch := []
  wf := dot_S16384x1024_S16384x1024_S1024x1024_0_0_1_1_n_n_wf

class Facts : Prop extends Facts₀ where

variable [Facts]
-- ==== Proof.K.Step.lean ====
/-
  What one grid point of each kernel computes, as a pure function of the blocks it loads.

  First kernel: from a tile of 256 rows and the resident weights it forms keys, values and the learning-rate logit,
  the softmax-weighted read of the fast weights, the scaled error term, and adds the outer product of the error term
  with the logistic of the keys to the accumulator it is handed. Second kernel: from a tile of 512 rows it forms the
  queries, their softmax, and the read of the updated fast weights.
-/
import proofs.«165204_j34668976013857_1_alg».proof.Proof.Gen.Kernel.Skeleton

noncomputable section

namespace Cert.Kernel.Hand

open Idealize.ShloMosaic Cert.Kernel Cert.Kernel.Gen

variable {F : FTy → Type} [FloatOps F]

/-- The accumulator after one point of the first kernel: the accumulator before it plus the tile's outer product. -/
def step0 (x : Vec F S256x1024 .f32) (wk wv : Vec F S1024x1024 .bf16) (wlr : Vec F S1024x128 .bf16)
    (bk bv : Vec F S1024 .f32) (blr : Vec F S128 .f32) (wf : Vec F S1024x1024 .bf16) (bf : Vec F S1024 .f32)
    (acc : Vec F S1024x1024 .f32) : FVec F S1024x1024 .f32 :=
  k0_pay1 (k0_pay4 x wk bk) (k0_pay5 x wv bv) (k0_pay6 x wlr blr) (k0_pay7 x wk bk) (k0_pay8 x wk bk) wf bf acc

/-- The accumulator the first point starts from: zero everywhere. -/
def zero0 : FVec F S1024x1024 .f32 := k0_pay2

/-- The output tile of one point of the second kernel. -/
def step1 (x : Vec F S512x1024 .f32) (wq : Vec F S1024x1024 .bf16) (bq : Vec F S1024 .f32)
    (wn : Vec F S1024x1024 .bf16) (bf : Vec F S1024 .f32) : FVec F S512x1024 .f32 :=
  k1_pay1 x wq bq wn bf

end Cert.Kernel.Hand

end
-- ==== Proof.K.R0.lean ====
/-
  The first kernel's region, at any float instance: what every window's staging buffer and the kernel's scratch
  accumulator hold after the body at each grid point, given the buffers' contents V when the region is entered, and
  the body's Hoare triple at every point. The nine inputs are left in place. The scratch is zeroed at the first point,
  then at every point takes step0 of the point's input blocks and of what it held; the output buffer is a copy of it.
-/
import proofs.«165204_j34668976013857_1_alg».proof.Proof.Gen.Kernel.Launch
import proofs.«165204_j34668976013857_1_alg».proof.Proof.Gen.Kernel.Skeleton
import proofs.«165204_j34668976013857_1_alg».proof.Proof.Gen.Kernel.Points
import proofs.«165204_j34668976013857_1_alg».proof.Proof.K.Step
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body on any whole buffers -/

/-- The branch condition of the body: the point's coordinate is zero, as the program computes it. -/
abbrev cond0 (i : grid0.Coords) : Prop :=
  (Scalar.cmpi .ne (Scalar.extui (Scalar.cmpi .eq (BitVec.ofNat 32 (i 0).val) 0#32)) 0#32) = 1#1

/-- It holds at the first point only: decided over the grid. -/
theorem hcond0 : ∀ t : Fin cfg0.N, cond0 (grid0.coords t) ↔ t.val = 0 :=
  (by decide +kernel : ∀ t : Fin grid0.N, cond0 (grid0.coords t) ↔ t.val = 0)

/-- The zero offsets of a rank-2 and of a rank-1 buffer, as the program spells them. -/
theorem hz0_2 : (![0, 0] : Fin 2 → Nat) = fun _ => 0 := funext fun a => by fin_cases a <;> rfl
theorem hz0_1 : (![0] : Fin 1 → Nat) = fun _ => 0 := funext fun a => by fin_cases a <;> rfl

section Whole

variable {Val : EltTy → Type} [∀ e, Nonempty (Val e)] {sg : RefSig} {κ : Kind} {sp : Space} {S : Shape} {e : EltTy}

/-- A buffer whose LAST store went through its whole extent reads back that store's payload, whatever came before. -/
theorem read_writes_whole_last (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole extent after such a store reads the payload too. -/
theorem readCov_whole_last (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

end Whole

/-- Separating conjunction associates, as an equality of assertions. -/
theorem sep_assoc_eq {M : Type} [URA M] (P Q R : sProp M) : (iprop((P ∗ Q) ∗ R) : sProp M) = iprop(P ∗ Q ∗ R) := by
  have h1 : (iprop((P ∗ Q) ∗ R) : sProp M) ⊢ iprop(P ∗ Q ∗ R) := by
    iintro ⟨⟨HP, HQ⟩, HR⟩
    isplitl [HP]; · iexact HP
    isplitl [HQ]; · iexact HQ
    iexact HR
  have h2 : (iprop(P ∗ Q ∗ R) : sProp M) ⊢ iprop((P ∗ Q) ∗ R) := by
    iintro ⟨HP, HQ, HR⟩
    isplitl [HP HQ]
    · isplitl [HP]; · iexact HP
      iexact HQ
    iexact HR
  exact Entails.antisymm h1 h2

set_option maxHeartbeats 4000000 in
/-- The body at a later point: with the nine input buffers at x0 … x8, the output buffer at anything and the scratch at a,
    it hands the inputs back and leaves step0 x0 … x8 a in the scratch and, copied, in the output buffer. -/
theorem kernel_later (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S128 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .f32) (harg10 : arg10.IsWhole) (arg11 : Memref sig .tc .vmem S1024x1024 .f32) (harg11 : arg11.IsWhole) (hc : ¬cond0 i)
    (x0 : Vec F S256x1024 .f32) (x1 x2 : Vec F S1024x1024 .bf16) (x3 : Vec F S1024x128 .bf16) (x4 x5 : Vec F S1024 .f32) (x6 : Vec F S128 .f32) (x7 : Vec F S1024x1024 .bf16) (x8 : Vec F S1024 .f32) (a : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 x0 x1 x2 x3 x4 x5 x6 x7 x8 a) ∗ owns (c : Thread nD τ) arg11 fullShare (step0 x0 x1 x2 x3 x4 x5 x6 x7 x8 a)) -∗ K ⟨⟩))
      ⊢ wp frame (wpE (defs₀ (F := F)) Variants.none c none) E (cc0__kernel1_body i arg1 harg1 arg2 harg2 arg3 harg3 arg4 harg4 arg5 harg5 arg6 harg6 arg7 harg7 arg8 harg8 arg9 harg9 arg10 harg10 arg11 harg11) K := by
  simp only [cc0__kernel1_body_eq_skeleton]; unfold cc0__kernel1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg11.eq_unread hf11
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [read_writes_whole_last _ _ hz0_2]
    sl_unfold_run_names
    rw [readCov_whole_last _ hz0_2]
    unfold step0
    simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1, harg11.read_unread]
  iexists _; isplitr
  swap; · iexact H11
  ipureintro
  sl_unfold_run_names
  rw [read_writes_whole_last _ _ hz0_2]
  unfold step0
  simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1, harg11.read_unread]

set_option maxHeartbeats 4000000 in
/-- The body at the first point: the scratch, handed at anything, is zeroed first; so with the nine input buffers at
    x0 … x8 it hands the inputs back and leaves step0 x0 … x8 zero0 in the scratch and in the output buffer. -/
theorem kernel_first (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S128 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .f32) (harg10 : arg10.IsWhole) (arg11 : Memref sig .tc .vmem S1024x1024 .f32) (harg11 : arg11.IsWhole) (hc : cond0 i)
    (x0 : Vec F S256x1024 .f32) (x1 x2 : Vec F S1024x1024 .bf16) (x3 : Vec F S1024x128 .bf16) (x4 x5 : Vec F S1024 .f32) (x6 : Vec F S128 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 x0 x1 x2 x3 x4 x5 x6 x7 x8 zero0) ∗ owns (c : Thread nD τ) arg11 fullShare (step0 x0 x1 x2 x3 x4 x5 x6 x7 x8 zero0)) -∗ K ⟨⟩))
      ⊢ wp frame (wpE (defs₀ (F := F)) Variants.none c none) E (cc0__kernel1_body i arg1 harg1 arg2 harg2 arg3 harg3 arg4 harg4 arg5 harg5 arg6 harg6 arg7 harg7 arg8 harg8 arg9 harg9 arg10 harg10 arg11 harg11) K := by
  simp only [cc0__kernel1_body_eq_skeleton]; unfold cc0__kernel1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [read_writes_whole_last _ _ hz0_2]
    sl_unfold_run_names
    rw [readCov_whole_last _ hz0_2, readCov_whole_last _ hz0_2]
    unfold step0 zero0
    simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1]
  iexists _; isplitr
  swap; · iexact H11
  ipureintro
  sl_unfold_run_names
  rw [read_writes_whole_last _ _ hz0_2, readCov_whole_last _ hz0_2]
  unfold step0 zero0
  simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1]

/-! ## The region's proof data -/

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: from zero at the first point, one step0 per point. -/
def accAt (c : Dev nD) : (n : ℕ) → n < cfg0.N → Vec F S1024x1024 .f32
  | 0, hn => step0 (iblk0 V c 0 ⟨0, hn⟩) (iblk0 V c 1 ⟨0, hn⟩) (iblk0 V c 2 ⟨0, hn⟩) (iblk0 V c 3 ⟨0, hn⟩) (iblk0 V c 4 ⟨0, hn⟩)
      (iblk0 V c 5 ⟨0, hn⟩) (iblk0 V c 6 ⟨0, hn⟩) (iblk0 V c 7 ⟨0, hn⟩) (iblk0 V c 8 ⟨0, hn⟩) zero0
  | n + 1, hn => step0 (iblk0 V c 0 ⟨n + 1, hn⟩) (iblk0 V c 1 ⟨n + 1, hn⟩) (iblk0 V c 2 ⟨n + 1, hn⟩) (iblk0 V c 3 ⟨n + 1, hn⟩)
      (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩)
      (accAt c n (Nat.lt_of_succ_lt hn))

/-- The kernel's scratch accumulator, a whole scoped buffer of its own. -/
abbrev scM0 : Memref sig .tc .vmem S1024x1024 .f32 := Memref.whole cc0_scratch0

/-- What the region is handed besides the scratch accumulator and never touches: the second kernel's eight staging
    buffers, each whole at some contents, and the generator register at some state. -/
def rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r))

/-- The region invariant before position n: before the first point whatever the region was handed (every scoped
    buffer no window stages at some contents, the generator register at some state); afterwards the same with the
    scratch accumulator at what the point before left in it. -/
def PhiS (c : Dev nD) : (n : ℕ) → n ≤ cfg0.N → sProp 𝕄
  | 0, _ => Pipeline.ΦA spec0 c
  | n + 1, hn => iprop(owns (c : Thread nD τ) scM0 fullShare (accAt V c n hn) ∗ rest0 c)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = accAt V c t.val t.isLt := by
  dsimp only [dat0]

/-! ## The invariant's equations -/

theorem PhiS_zero (c : Dev nD) (n : ℕ) (h : n ≤ cfg0.N) (hz : n = 0) : PhiS V c n h = Pipeline.ΦA spec0 c := by
  subst hz; rfl

/-- After point n: the scratch at that point's accumulator. -/
theorem PhiS_succ (c : Dev nD) (n : ℕ) (hn : n < cfg0.N) :
    PhiS V c (n + 1) hn = iprop(owns (c : Thread nD τ) scM0 fullShare (accAt V c n hn) ∗ rest0 c) := rfl

/-- Before a point that is not the first: the scratch at what the point before left. -/
theorem PhiS_pos (c : Dev nD) (n : ℕ) (h : n ≤ cfg0.N) (hz : n ≠ 0) :
    PhiS V c n h = iprop(owns (c : Thread nD τ) scM0 fullShare (accAt V c (n - 1) (by omega)) ∗ rest0 c) := by
  cases n with
  | zero => exact absurd rfl hz
  | succ n => rfl

/-- What the region is handed, with the scratch as a memref owned at some contents. -/
theorem PhiA0_eq (c : Dev nD) :
    (Pipeline.ΦA spec0 c : sProp 𝕄) = iprop((∃ d, owns (c : Thread nD τ) scM0 fullShare d) ∗ rest0 c) := by
  unfold Pipeline.ΦA rest0; rw [scopedRest0_eq]; simp only [scM0, owns_whole]
  exact sep_assoc_eq _ _ _

/-- The accumulator after the first point. -/
theorem accAt_zero (c : Dev nD) (t : Fin cfg0.N) (hz : t.val = 0) :
    accAt V c t.val t.isLt = step0 (iblk0 V c 0 t) (iblk0 V c 1 t) (iblk0 V c 2 t) (iblk0 V c 3 t) (iblk0 V c 4 t)
      (iblk0 V c 5 t) (iblk0 V c 6 t) (iblk0 V c 7 t) (iblk0 V c 8 t) zero0 := by
  obtain ⟨n, hn⟩ := t
  cases n with
  | zero => rfl
  | succ n => exact absurd hz (Nat.succ_ne_zero n)

/-- The accumulator after a later point: one step from the point before. -/
theorem accAt_pos (c : Dev nD) (t : Fin cfg0.N) (hz : t.val ≠ 0) :
    accAt V c t.val t.isLt = step0 (iblk0 V c 0 t) (iblk0 V c 1 t) (iblk0 V c 2 t) (iblk0 V c 3 t) (iblk0 V c 4 t)
      (iblk0 V c 5 t) (iblk0 V c 6 t) (iblk0 V c 7 t) (iblk0 V c 8 t)
      (accAt V c (t.val - 1) (Nat.lt_of_le_of_lt (Nat.sub_le _ _) t.isLt)) := by
  obtain ⟨n, hn⟩ := t
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The inputs stay in place -/

/-- The body leaves input 0's block in place. -/
theorem after0_0 (c : Dev nD) (t : Fin cfg0.N) : (dat0 V c).after 0 t = iblk0 V c 0 t := by dsimp only [dat0]
/-- The body leaves input 1's block in place. -/
theorem after0_1 (c : Dev nD) (t : Fin cfg0.N) : (dat0 V c).after 1 t = iblk0 V c 1 t := by dsimp only [dat0]
/-- The body leaves input 2's block in place. -/
theorem after0_2 (c : Dev nD) (t : Fin cfg0.N) : (dat0 V c).after 2 t = iblk0 V c 2 t := by dsimp only [dat0]
/-- The body leaves input 3's block in place. -/
theorem after0_3 (c : Dev nD) (t : Fin cfg0.N) : (dat0 V c).after 3 t = iblk0 V c 3 t := by dsimp only [dat0]
/-- The body leaves input 4's block in place. -/
theorem after0_4 (c : Dev nD) (t : Fin cfg0.N) : (dat0 V c).after 4 t = iblk0 V c 4 t := by dsimp only [dat0]
/-- The body leaves input 5's block in place. -/
theorem after0_5 (c : Dev nD) (t : Fin cfg0.N) : (dat0 V c).after 5 t = iblk0 V c 5 t := by dsimp only [dat0]
/-- The body leaves input 6's block in place. -/
theorem after0_6 (c : Dev nD) (t : Fin cfg0.N) : (dat0 V c).after 6 t = iblk0 V c 6 t := by dsimp only [dat0]
/-- The body leaves input 7's block in place. -/
theorem after0_7 (c : Dev nD) (t : Fin cfg0.N) : (dat0 V c).after 7 t = iblk0 V c 7 t := by dsimp only [dat0]
/-- The body leaves input 8's block in place. -/
theorem after0_8 (c : Dev nD) (t : Fin cfg0.N) : (dat0 V c).after 8 t = iblk0 V c 8 t := by dsimp only [dat0]

/-- Input 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- Input 7's current staging buffer holds its block at every point, fetched there or not. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
/-- Input 8's current staging buffer holds its block at every point, fetched there or not. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. The inputs' buffers hold their blocks. At the first point the invariant hands the scratch at
    anything and the body zeroes it; at a later point it hands the scratch at the accumulator the point before left.
    Either way the scratch and the output buffer are left at this point's accumulator; the rest of the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7, after0_8, after0_9]
  by_cases hz : t.val = 0
  · rw [PhiS_castSucc V c t, PhiS_zero V c _ _ hz, PhiA0_eq, accAt_zero V c t hz]
    iintro ⟨⟨⟨%ds, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernel_first c Set.univ (grid0.coords t) _ _ _ _ _ _ _ _ _ _ _ _ _ _ _ _ _ _ _ _ _ _ ((hcond0 t).mpr hz) (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexists _; iexact HS
    iintro ⟨H0, H1, H2, H3, H4, H5, H6, H7, H8, H9, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_castSucc V c t, PhiS_pos V c _ _ hz, accAt_pos V c t hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernel_later c Set.univ (grid0.coords t) _ _ _ _ _ _ _ _ _ _ _ _ _ _ _ _ _ _ _ _ _ _ (fun h => hz ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the region was handed: the scratch's named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, HR⟩
  isplitl [HS]
  · iexists _; iexact HS
  iexact HR

/-- After the last point the invariant gives it back: the scratch's named contents are forgotten. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.R1.lean ====
/-
  The second kernel's region, at any float instance: what every window's staging buffer holds after the body at each
  grid point, given the buffers' contents V when the region is entered, and the body's Hoare triple at every point.
  The five inputs are left in place; the output tile is the point's function step1 of the five input blocks.
-/
import proofs.«165204_j34668976013857_1_alg».proof.Proof.Gen.Kernel.Launch
import proofs.«165204_j34668976013857_1_alg».proof.Proof.Gen.Kernel.Skeleton
import proofs.«165204_j34668976013857_1_alg».proof.Proof.Gen.Kernel.Points
import proofs.«165204_j34668976013857_1_alg».proof.Proof.K.Step
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => step1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = step1 (iblk1 V c 0 t) (iblk1 V c 1 t) (iblk1 V c 2 t) (iblk1 V c 3 t) (iblk1 V c 4 t) := by
  dsimp only [dat1]

/-! ## The input windows hold their blocks when the body is called -/

/- An input window's buffer holds the window's block at every point, fetched there or not: where it is not fetched
   its block index has not moved since the previous point, and the body leaves the buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_a : Rect S512x1024 := Rect.unit (s := S512x1024) ![0, 0] S512x1024.size inb_S512x1024_S512x1024_0_0
abbrev r1_b : Rect S1024x1024 := Rect.unit (s := S1024x1024) ![0, 0] S1024x1024.size inb_S1024x1024_S1024x1024_0_0
abbrev r1_c : Rect S1024 := Rect.unit (s := S1024) ![0] S1024.size inb_S1024_S1024_0

theorem hz1 : (![0] : Fin 1 → Nat) = fun _ => 0 := by funext a; fin_cases a <;> rfl
theorem hz2 : (![0, 0] : Fin 2 → Nat) = fun _ => 0 := by funext a; fin_cases a <;> rfl

/-- The output buffer after the body, from the five input buffers: its one store, of the point's function of the
    five loaded values. -/
def out1_5 (x0 : Vec F S512x1024 .f32) (x1 : Vec F S1024x1024 .bf16) (x2 : Vec F S1024 .f32)
    (x3 : Vec F S1024x1024 .bf16) (x4 : Vec F S1024 .f32) : Vec F S512x1024 .f32 :=
  View.canon [⟨r1_a, k1_pay1 (View.ld x0 r1_a) (View.ld x1 r1_b) (View.ld x2 r1_c) (View.ld x3 r1_b) (View.ld x4 r1_c)⟩]

/-- The one store covers the output buffer. -/
theorem cover1_5 (p0 : Vec F S512x1024 .f32) (y : S512x1024.Idx) :
    ∃ pc ∈ ([⟨r1_a, p0⟩] : List (View.Piece (Elt F) S512x1024 .f32)), y ∈ pc.1.set :=
  View.cover_of_tiled [⟨r1_a, p0⟩] S512x1024.size (by rfl) y

/-- A whole-buffer store of a function of whole-buffer loads leaves that function of the buffers. -/
theorem out1_5_eq (x0 : Vec F S512x1024 .f32) (x1 : Vec F S1024x1024 .bf16) (x2 : Vec F S1024 .f32)
    (x3 : Vec F S1024x1024 .bf16) (x4 : Vec F S1024 .f32) : out1_5 x0 x1 x2 x3 x4 = step1 x0 x1 x2 x3 x4 := by
  unfold out1_5 step1
  rw [View.canon_unit_zero hz2]
  simp only [View.ld_unit_zero (S := S512x1024) hz2, View.ld_unit_zero (S := S1024x1024) hz2, View.ld_unit_zero (S := S1024) hz1]

/-! ## The body's triple -/

set_option maxHeartbeats 1000000 in
/-- The body on whole buffers, the five inputs' at contents x0..x4 and the output's at anything, runs to the
    continuation holding the inputs' as they were and the output's at out1_5 of the inputs'. -/
theorem sound_kernel1 (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S512x1024 .f32) (harg6 : arg6.IsWhole)
    (x0 : Vec F S512x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__kernel2_body i arg1 harg1 arg2 harg2 arg3 harg3 arg4 harg4 arg5 harg5 arg6 harg6) K := by
  simp only [cc1__kernel2_body_eq_skeleton]; unfold cc1__kernel2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run, at any float instance: @main is a host stretch, the first kernel's region, a second host
  stretch and the second kernel's region. The buffers' contents at the four boundaries are a fold from the launch
  memory: a host stretch applies its operations; a region leaves each of its windows' arrays at what its write-backs
  leave and every other buffer as it found it. Every weakly fair execution terminates and ends with every unscoped
  buffer at the last fold; the five arguments are never written, so they end as launched.
-/
import proofs.«165204_j34668976013857_1_alg».proof.Proof.Gen.Kernel.Launch
import proofs.«165204_j34668976013857_1_alg».proof.Proof.Gen.Kernel.Skeleton
import proofs.«165204_j34668976013857_1_alg».proof.Proof.Gen.Kernel.Points
import proofs.«165204_j34668976013857_1_alg».proof.Proof.K.Step
import proofs.«165204_j34668976013857_1_alg».proof.Proof.Gen.Kernel.Regions
import proofs.«165204_j34668976013857_1_alg».proof.Proof.K.R0
import proofs.«165204_j34668976013857_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A host stretch leaves a buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The batch of rows x is the first window of both regions, which only read it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The weight matrix, the bias vector and the fast weights are no window's array: host stretches read them. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- The fast bias is the last input window of both regions. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := W3_of m ρ c main_arg4 (by decide)
    _ = W1 m ρ c (Proc.devRef .tc main_arg4) := (W2_arr m ρ c 8).trans (((dat0 (V1 m ρ) c).arrAt_in 8 rfl _).trans (A_eq0 (V1 m ρ) c 8))
    _ = W0 m ρ c (Proc.devRef .tc main_arg4) := W1_of m ρ c main_arg4 (by decide)
    _ = m ((c : Thread nD τ).loc main_arg4) := rfl
/-- The result is the second region's output window's array. -/
theorem W4_main_v26 (c : Dev nD) : W4 m ρ c (Proc.devRef .tc main_v26) = (dat1 (V3 m ρ) c).arrAt 5 cfg1.N :=
  W4_arr m ρ c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. Its arrays are split out of the unscoped
    buffers and put back at the exit contents; the scoped rest and the generator register go into the kernel's
    invariant (the scratch accumulator among them) and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4 (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, and the result's contents: the five arguments end as launched and the result buffer holds what the
    second region's write-backs leave. -/
theorem run_post : θ_run defs (onTc (τ := τ) (main (F := F))) ⟨m, fun _ => 0, ρ⟩ (fun r => ∀ c : Dev nD,
      r.2.mem ((c.tc : Thread nD τ).loc main_v26) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v26 (by decide))).trans (W4_main_v26 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- The frame claim alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ)

end Cert.Kernel.Hand

end
-- ==== Proof.KI.Step.lean ====
/-
  What one grid point of each kernel computes, as a pure function of the blocks it loads.

  First kernel: from a tile of 256 rows and the resident weights it forms keys, values and the learning-rate logit,
  the softmax-weighted read of the fast weights, the scaled error term, and adds the outer product of the error term
  with the logistic of the keys to the accumulator it is handed. Second kernel: from a tile of 512 rows it forms the
  queries, their softmax, and the read of the updated fast weights.
-/
import proofs.«165204_j34668976013857_1_alg».proof.Proof.Gen.KernelIdeal.Skeleton

noncomputable section

namespace Cert.KernelIdeal.Hand

open Idealize.ShloMosaic Cert.KernelIdeal Cert.KernelIdeal.Gen

variable {F : FTy → Type} [FloatOps F]

/-- The accumulator after one point of the first kernel: the accumulator before it plus the tile's outer product. -/
def step0 (x : Vec F S256x1024 .f32) (wk wv : Vec F S1024x1024 .bf16) (wlr : Vec F S1024x128 .bf16)
    (bk bv : Vec F S1024 .f32) (blr : Vec F S128 .f32) (wf : Vec F S1024x1024 .bf16) (bf : Vec F S1024 .f32)
    (acc : Vec F S1024x1024 .f32) : FVec F S1024x1024 .f32 :=
  k0_pay1 (k0_pay4 x wk bk) (k0_pay5 x wv bv) (k0_pay6 x wlr blr) (k0_pay7 x wk bk) (k0_pay8 x wk bk) wf bf acc

/-- The accumulator the first point starts from: zero everywhere. -/
def zero0 : FVec F S1024x1024 .f32 := k0_pay2

/-- The output tile of one point of the second kernel. -/
def step1 (x : Vec F S512x1024 .f32) (wq : Vec F S1024x1024 .bf16) (bq : Vec F S1024 .f32)
    (wn : Vec F S1024x1024 .bf16) (bf : Vec F S1024 .f32) : FVec F S512x1024 .f32 :=
  k1_pay1 x wq bq wn bf

end Cert.KernelIdeal.Hand

end
-- ==== Proof.KI.R0.lean ====
/-
  The first kernel's region, at any float instance: what every window's staging buffer and the kernel's scratch
  accumulator hold after the body at each grid point, given the buffers' contents V when the region is entered, and
  the body's Hoare triple at every point. The nine inputs are left in place. The scratch is zeroed at the first point,
  then at every point takes step0 of the point's input blocks and of what it held; the output buffer is a copy of it.
-/
import proofs.«165204_j34668976013857_1_alg».proof.Proof.Gen.KernelIdeal.Launch
import proofs.«165204_j34668976013857_1_alg».proof.Proof.Gen.KernelIdeal.Skeleton
import proofs.«165204_j34668976013857_1_alg».proof.Proof.Gen.KernelIdeal.Points
import proofs.«165204_j34668976013857_1_alg».proof.Proof.KI.Step
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body on any whole buffers -/

/-- The branch condition of the body: the point's coordinate is zero, as the program computes it. -/
abbrev cond0 (i : grid0.Coords) : Prop :=
  (Scalar.cmpi .ne (Scalar.extui (Scalar.cmpi .eq (BitVec.ofNat 32 (i 0).val) 0#32)) 0#32) = 1#1

/-- It holds at the first point only: decided over the grid. -/
theorem hcond0 : ∀ t : Fin cfg0.N, cond0 (grid0.coords t) ↔ t.val = 0 :=
  (by decide +kernel : ∀ t : Fin grid0.N, cond0 (grid0.coords t) ↔ t.val = 0)

/-- The zero offsets of a rank-2 and of a rank-1 buffer, as the program spells them. -/
theorem hz0_2 : (![0, 0] : Fin 2 → Nat) = fun _ => 0 := funext fun a => by fin_cases a <;> rfl
theorem hz0_1 : (![0] : Fin 1 → Nat) = fun _ => 0 := funext fun a => by fin_cases a <;> rfl

section Whole

variable {Val : EltTy → Type} [∀ e, Nonempty (Val e)] {sg : RefSig} {κ : Kind} {sp : Space} {S : Shape} {e : EltTy}

/-- A buffer whose LAST store went through its whole extent reads back that store's payload, whatever came before. -/
theorem read_writes_whole_last (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole extent after such a store reads the payload too. -/
theorem readCov_whole_last (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

end Whole

/-- Separating conjunction associates, as an equality of assertions. -/
theorem sep_assoc_eq {M : Type} [URA M] (P Q R : sProp M) : (iprop((P ∗ Q) ∗ R) : sProp M) = iprop(P ∗ Q ∗ R) := by
  have h1 : (iprop((P ∗ Q) ∗ R) : sProp M) ⊢ iprop(P ∗ Q ∗ R) := by
    iintro ⟨⟨HP, HQ⟩, HR⟩
    isplitl [HP]; · iexact HP
    isplitl [HQ]; · iexact HQ
    iexact HR
  have h2 : (iprop(P ∗ Q ∗ R) : sProp M) ⊢ iprop((P ∗ Q) ∗ R) := by
    iintro ⟨HP, HQ, HR⟩
    isplitl [HP HQ]
    · isplitl [HP]; · iexact HP
      iexact HQ
    iexact HR
  exact Entails.antisymm h1 h2

set_option maxHeartbeats 4000000 in
/-- The body at a later point: with the nine input buffers at x0 … x8, the output buffer at anything and the scratch at a,
    it hands the inputs back and leaves step0 x0 … x8 a in the scratch and, copied, in the output buffer. -/
theorem kernel_later (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S128 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .f32) (harg10 : arg10.IsWhole) (arg11 : Memref sig .tc .vmem S1024x1024 .f32) (harg11 : arg11.IsWhole) (hc : ¬cond0 i)
    (x0 : Vec F S256x1024 .f32) (x1 x2 : Vec F S1024x1024 .bf16) (x3 : Vec F S1024x128 .bf16) (x4 x5 : Vec F S1024 .f32) (x6 : Vec F S128 .f32) (x7 : Vec F S1024x1024 .bf16) (x8 : Vec F S1024 .f32) (a : Vec F S1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 x0 x1 x2 x3 x4 x5 x6 x7 x8 a) ∗ owns (c : Thread nD τ) arg11 fullShare (step0 x0 x1 x2 x3 x4 x5 x6 x7 x8 a)) -∗ K ⟨⟩))
      ⊢ wp frame (wpE (defs₀ (F := F)) Variants.none c none) E (cc0__kernel1_body i arg1 harg1 arg2 harg2 arg3 harg3 arg4 harg4 arg5 harg5 arg6 harg6 arg7 harg7 arg8 harg8 arg9 harg9 arg10 harg10 arg11 harg11) K := by
  simp only [cc0__kernel1_body_eq_skeleton]; unfold cc0__kernel1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  obtain rfl := harg11.eq_unread hf11
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [read_writes_whole_last _ _ hz0_2]
    sl_unfold_run_names
    rw [readCov_whole_last _ hz0_2]
    unfold step0
    simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1, harg11.read_unread]
  iexists _; isplitr
  swap; · iexact H11
  ipureintro
  sl_unfold_run_names
  rw [read_writes_whole_last _ _ hz0_2]
  unfold step0
  simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1, harg11.read_unread]

set_option maxHeartbeats 4000000 in
/-- The body at the first point: the scratch, handed at anything, is zeroed first; so with the nine input buffers at
    x0 … x8 it hands the inputs back and leaves step0 x0 … x8 zero0 in the scratch and in the output buffer. -/
theorem kernel_first (c : Dev nD) (E : Set ℕ) (i : grid0.Coords) (arg1 : Memref sig .tc .vmem S256x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S128 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1024 .f32) (harg10 : arg10.IsWhole) (arg11 : Memref sig .tc .vmem S1024x1024 .f32) (harg11 : arg11.IsWhole) (hc : cond0 i)
    (x0 : Vec F S256x1024 .f32) (x1 x2 : Vec F S1024x1024 .bf16) (x3 : Vec F S1024x128 .bf16) (x4 x5 : Vec F S1024 .f32) (x6 : Vec F S128 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 x0 x1 x2 x3 x4 x5 x6 x7 x8 zero0) ∗ owns (c : Thread nD τ) arg11 fullShare (step0 x0 x1 x2 x3 x4 x5 x6 x7 x8 zero0)) -∗ K ⟨⟩))
      ⊢ wp frame (wpE (defs₀ (F := F)) Variants.none c none) E (cc0__kernel1_body i arg1 harg1 arg2 harg2 arg3 harg3 arg4 harg4 arg5 harg5 arg6 harg6 arg7 harg7 arg8 harg8 arg9 harg9 arg10 harg10 arg11 harg11) K := by
  simp only [cc0__kernel1_body_eq_skeleton]; unfold cc0__kernel1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [read_writes_whole_last _ _ hz0_2]
    sl_unfold_run_names
    rw [readCov_whole_last _ hz0_2, readCov_whole_last _ hz0_2]
    unfold step0 zero0
    simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1]
  iexists _; isplitr
  swap; · iexact H11
  ipureintro
  sl_unfold_run_names
  rw [read_writes_whole_last _ _ hz0_2, readCov_whole_last _ hz0_2]
  unfold step0 zero0
  simp only [View.readAt_eq_ld, harg1.read_unread, harg2.read_unread, harg3.read_unread, harg4.read_unread, harg5.read_unread, harg6.read_unread, harg7.read_unread, harg8.read_unread, harg9.read_unread, View.ld_unit_zero (S := S256x1024) hz0_2, View.ld_unit_zero (S := S1024x1024) hz0_2, View.ld_unit_zero (S := S1024x128) hz0_2, View.ld_unit_zero (S := S1024) hz0_1, View.ld_unit_zero (S := S128) hz0_1]

/-! ## The region's proof data -/

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: from zero at the first point, one step0 per point. -/
def accAt (c : Dev nD) : (n : ℕ) → n < cfg0.N → Vec F S1024x1024 .f32
  | 0, hn => step0 (iblk0 V c 0 ⟨0, hn⟩) (iblk0 V c 1 ⟨0, hn⟩) (iblk0 V c 2 ⟨0, hn⟩) (iblk0 V c 3 ⟨0, hn⟩) (iblk0 V c 4 ⟨0, hn⟩)
      (iblk0 V c 5 ⟨0, hn⟩) (iblk0 V c 6 ⟨0, hn⟩) (iblk0 V c 7 ⟨0, hn⟩) (iblk0 V c 8 ⟨0, hn⟩) zero0
  | n + 1, hn => step0 (iblk0 V c 0 ⟨n + 1, hn⟩) (iblk0 V c 1 ⟨n + 1, hn⟩) (iblk0 V c 2 ⟨n + 1, hn⟩) (iblk0 V c 3 ⟨n + 1, hn⟩)
      (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩)
      (accAt c n (Nat.lt_of_succ_lt hn))

/-- The kernel's scratch accumulator, a whole scoped buffer of its own. -/
abbrev scM0 : Memref sig .tc .vmem S1024x1024 .f32 := Memref.whole cc0_scratch0

/-- What the region is handed besides the scratch accumulator and never touches: the second kernel's eight staging
    buffers, each whole at some contents, and the generator register at some state. -/
def rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r))

/-- The region invariant before position n: before the first point whatever the region was handed (every scoped
    buffer no window stages at some contents, the generator register at some state); afterwards the same with the
    scratch accumulator at what the point before left in it. -/
def PhiS (c : Dev nD) : (n : ℕ) → n ≤ cfg0.N → sProp 𝕄
  | 0, _ => Pipeline.ΦA spec0 c
  | n + 1, hn => iprop(owns (c : Thread nD τ) scM0 fullShare (accAt V c n hn) ∗ rest0 c)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = accAt V c t.val t.isLt := by
  dsimp only [dat0]

/-! ## The invariant's equations -/

theorem PhiS_zero (c : Dev nD) (n : ℕ) (h : n ≤ cfg0.N) (hz : n = 0) : PhiS V c n h = Pipeline.ΦA spec0 c := by
  subst hz; rfl

/-- After point n: the scratch at that point's accumulator. -/
theorem PhiS_succ (c : Dev nD) (n : ℕ) (hn : n < cfg0.N) :
    PhiS V c (n + 1) hn = iprop(owns (c : Thread nD τ) scM0 fullShare (accAt V c n hn) ∗ rest0 c) := rfl

/-- Before a point that is not the first: the scratch at what the point before left. -/
theorem PhiS_pos (c : Dev nD) (n : ℕ) (h : n ≤ cfg0.N) (hz : n ≠ 0) :
    PhiS V c n h = iprop(owns (c : Thread nD τ) scM0 fullShare (accAt V c (n - 1) (by omega)) ∗ rest0 c) := by
  cases n with
  | zero => exact absurd rfl hz
  | succ n => rfl

/-- What the region is handed, with the scratch as a memref owned at some contents. -/
theorem PhiA0_eq (c : Dev nD) :
    (Pipeline.ΦA spec0 c : sProp 𝕄) = iprop((∃ d, owns (c : Thread nD τ) scM0 fullShare d) ∗ rest0 c) := by
  unfold Pipeline.ΦA rest0; rw [scopedRest0_eq]; simp only [scM0, owns_whole]
  exact sep_assoc_eq _ _ _

/-- The accumulator after the first point. -/
theorem accAt_zero (c : Dev nD) (t : Fin cfg0.N) (hz : t.val = 0) :
    accAt V c t.val t.isLt = step0 (iblk0 V c 0 t) (iblk0 V c 1 t) (iblk0 V c 2 t) (iblk0 V c 3 t) (iblk0 V c 4 t)
      (iblk0 V c 5 t) (iblk0 V c 6 t) (iblk0 V c 7 t) (iblk0 V c 8 t) zero0 := by
  obtain ⟨n, hn⟩ := t
  cases n with
  | zero => rfl
  | succ n => exact absurd hz (Nat.succ_ne_zero n)

/-- The accumulator after a later point: one step from the point before. -/
theorem accAt_pos (c : Dev nD) (t : Fin cfg0.N) (hz : t.val ≠ 0) :
    accAt V c t.val t.isLt = step0 (iblk0 V c 0 t) (iblk0 V c 1 t) (iblk0 V c 2 t) (iblk0 V c 3 t) (iblk0 V c 4 t)
      (iblk0 V c 5 t) (iblk0 V c 6 t) (iblk0 V c 7 t) (iblk0 V c 8 t)
      (accAt V c (t.val - 1) (Nat.lt_of_le_of_lt (Nat.sub_le _ _) t.isLt)) := by
  obtain ⟨n, hn⟩ := t
  cases n with
  | zero => exact absurd rfl hz
  | succ n => rfl

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-! ## The inputs stay in place -/

/-- The body leaves input 0's block in place. -/
theorem after0_0 (c : Dev nD) (t : Fin cfg0.N) : (dat0 V c).after 0 t = iblk0 V c 0 t := by dsimp only [dat0]
/-- The body leaves input 1's block in place. -/
theorem after0_1 (c : Dev nD) (t : Fin cfg0.N) : (dat0 V c).after 1 t = iblk0 V c 1 t := by dsimp only [dat0]
/-- The body leaves input 2's block in place. -/
theorem after0_2 (c : Dev nD) (t : Fin cfg0.N) : (dat0 V c).after 2 t = iblk0 V c 2 t := by dsimp only [dat0]
/-- The body leaves input 3's block in place. -/
theorem after0_3 (c : Dev nD) (t : Fin cfg0.N) : (dat0 V c).after 3 t = iblk0 V c 3 t := by dsimp only [dat0]
/-- The body leaves input 4's block in place. -/
theorem after0_4 (c : Dev nD) (t : Fin cfg0.N) : (dat0 V c).after 4 t = iblk0 V c 4 t := by dsimp only [dat0]
/-- The body leaves input 5's block in place. -/
theorem after0_5 (c : Dev nD) (t : Fin cfg0.N) : (dat0 V c).after 5 t = iblk0 V c 5 t := by dsimp only [dat0]
/-- The body leaves input 6's block in place. -/
theorem after0_6 (c : Dev nD) (t : Fin cfg0.N) : (dat0 V c).after 6 t = iblk0 V c 6 t := by dsimp only [dat0]
/-- The body leaves input 7's block in place. -/
theorem after0_7 (c : Dev nD) (t : Fin cfg0.N) : (dat0 V c).after 7 t = iblk0 V c 7 t := by dsimp only [dat0]
/-- The body leaves input 8's block in place. -/
theorem after0_8 (c : Dev nD) (t : Fin cfg0.N) : (dat0 V c).after 8 t = iblk0 V c 8 t := by dsimp only [dat0]

/-- Input 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- Input 7's current staging buffer holds its block at every point, fetched there or not. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
/-- Input 8's current staging buffer holds its block at every point, fetched there or not. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. The inputs' buffers hold their blocks. At the first point the invariant hands the scratch at
    anything and the body zeroes it; at a later point it hands the scratch at the accumulator the point before left.
    Either way the scratch and the output buffer are left at this point's accumulator; the rest of the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7, after0_8, after0_9]
  by_cases hz : t.val = 0
  · rw [PhiS_castSucc V c t, PhiS_zero V c _ _ hz, PhiA0_eq, accAt_zero V c t hz]
    iintro ⟨⟨⟨%ds, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernel_first c Set.univ (grid0.coords t) _ _ _ _ _ _ _ _ _ _ _ _ _ _ _ _ _ _ _ _ _ _ ((hcond0 t).mpr hz) (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexists _; iexact HS
    iintro ⟨H0, H1, H2, H3, H4, H5, H6, H7, H8, H9, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_castSucc V c t, PhiS_pos V c _ _ hz, accAt_pos V c t hz]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernel_later c Set.univ (grid0.coords t) _ _ _ _ _ _ _ _ _ _ _ _ _ _ _ _ _ _ _ _ _ _ (fun h => hz ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (accAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the region was handed: the scratch's named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS, HR⟩
  isplitl [HS]
  · iexists _; iexact HS
  iexact HR

/-- After the last point the invariant gives it back: the scratch's named contents are forgotten. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R1.lean ====
/-
  The second kernel's region, at any float instance: what every window's staging buffer holds after the body at each
  grid point, given the buffers' contents V when the region is entered, and the body's Hoare triple at every point.
  The five inputs are left in place; the output tile is the point's function step1 of the five input blocks.
-/
import proofs.«165204_j34668976013857_1_alg».proof.Proof.Gen.KernelIdeal.Launch
import proofs.«165204_j34668976013857_1_alg».proof.Proof.Gen.KernelIdeal.Skeleton
import proofs.«165204_j34668976013857_1_alg».proof.Proof.Gen.KernelIdeal.Points
import proofs.«165204_j34668976013857_1_alg».proof.Proof.KI.Step
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => step1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = step1 (iblk1 V c 0 t) (iblk1 V c 1 t) (iblk1 V c 2 t) (iblk1 V c 3 t) (iblk1 V c 4 t) := by
  dsimp only [dat1]

/-! ## The input windows hold their blocks when the body is called -/

/- An input window's buffer holds the window's block at every point, fetched there or not: where it is not fetched
   its block index has not moved since the previous point, and the body leaves the buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_a : Rect S512x1024 := Rect.unit (s := S512x1024) ![0, 0] S512x1024.size inb_S512x1024_S512x1024_0_0
abbrev r1_b : Rect S1024x1024 := Rect.unit (s := S1024x1024) ![0, 0] S1024x1024.size inb_S1024x1024_S1024x1024_0_0
abbrev r1_c : Rect S1024 := Rect.unit (s := S1024) ![0] S1024.size inb_S1024_S1024_0

theorem hz1 : (![0] : Fin 1 → Nat) = fun _ => 0 := by funext a; fin_cases a <;> rfl
theorem hz2 : (![0, 0] : Fin 2 → Nat) = fun _ => 0 := by funext a; fin_cases a <;> rfl

/-- The output buffer after the body, from the five input buffers: its one store, of the point's function of the
    five loaded values. -/
def out1_5 (x0 : Vec F S512x1024 .f32) (x1 : Vec F S1024x1024 .bf16) (x2 : Vec F S1024 .f32)
    (x3 : Vec F S1024x1024 .bf16) (x4 : Vec F S1024 .f32) : Vec F S512x1024 .f32 :=
  View.canon [⟨r1_a, k1_pay1 (View.ld x0 r1_a) (View.ld x1 r1_b) (View.ld x2 r1_c) (View.ld x3 r1_b) (View.ld x4 r1_c)⟩]

/-- The one store covers the output buffer. -/
theorem cover1_5 (p0 : Vec F S512x1024 .f32) (y : S512x1024.Idx) :
    ∃ pc ∈ ([⟨r1_a, p0⟩] : List (View.Piece (Elt F) S512x1024 .f32)), y ∈ pc.1.set :=
  View.cover_of_tiled [⟨r1_a, p0⟩] S512x1024.size (by rfl) y

/-- A whole-buffer store of a function of whole-buffer loads leaves that function of the buffers. -/
theorem out1_5_eq (x0 : Vec F S512x1024 .f32) (x1 : Vec F S1024x1024 .bf16) (x2 : Vec F S1024 .f32)
    (x3 : Vec F S1024x1024 .bf16) (x4 : Vec F S1024 .f32) : out1_5 x0 x1 x2 x3 x4 = step1 x0 x1 x2 x3 x4 := by
  unfold out1_5 step1
  rw [View.canon_unit_zero hz2]
  simp only [View.ld_unit_zero (S := S512x1024) hz2, View.ld_unit_zero (S := S1024x1024) hz2, View.ld_unit_zero (S := S1024) hz1]

/-! ## The body's triple -/

set_option maxHeartbeats 1000000 in
/-- The body on whole buffers, the five inputs' at contents x0..x4 and the output's at anything, runs to the
    continuation holding the inputs' as they were and the output's at out1_5 of the inputs'. -/
theorem sound_kernel1 (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S512x1024 .f32) (harg6 : arg6.IsWhole)
    (x0 : Vec F S512x1024 .f32) (x1 : Vec F S1024x1024 .bf16) (x2 : Vec F S1024 .f32) (x3 : Vec F S1024x1024 .bf16) (x4 : Vec F S1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__kernel2_body i arg1 harg1 arg2 harg2 arg3 harg3 arg4 harg4 arg5 harg5 arg6 harg6) K := by
  simp only [cc1__kernel2_body_eq_skeleton]; unfold cc1__kernel2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run, at any float instance: @main is a host stretch, the first kernel's region, a second host
  stretch and the second kernel's region. The buffers' contents at the four boundaries are a fold from the launch
  memory: a host stretch applies its operations; a region leaves each of its windows' arrays at what its write-backs
  leave and every other buffer as it found it. Every weakly fair execution terminates and ends with every unscoped
  buffer at the last fold; the five arguments are never written, so they end as launched.
-/
import proofs.«165204_j34668976013857_1_alg».proof.Proof.Gen.KernelIdeal.Launch
import proofs.«165204_j34668976013857_1_alg».proof.Proof.Gen.KernelIdeal.Skeleton
import proofs.«165204_j34668976013857_1_alg».proof.Proof.Gen.KernelIdeal.Points
import proofs.«165204_j34668976013857_1_alg».proof.Proof.KI.Step
import proofs.«165204_j34668976013857_1_alg».proof.Proof.Gen.KernelIdeal.Regions
import proofs.«165204_j34668976013857_1_alg».proof.Proof.KI.R0
import proofs.«165204_j34668976013857_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

/-- A host stretch leaves a buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The batch of rows x is the first window of both regions, which only read it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The weight matrix, the bias vector and the fast weights are no window's array: host stretches read them. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- The fast bias is the last input window of both regions. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := W3_of m ρ c main_arg4 (by decide)
    _ = W1 m ρ c (Proc.devRef .tc main_arg4) := (W2_arr m ρ c 8).trans (((dat0 (V1 m ρ) c).arrAt_in 8 rfl _).trans (A_eq0 (V1 m ρ) c 8))
    _ = W0 m ρ c (Proc.devRef .tc main_arg4) := W1_of m ρ c main_arg4 (by decide)
    _ = m ((c : Thread nD τ).loc main_arg4) := rfl
/-- The result is the second region's output window's array. -/
theorem W4_main_v26 (c : Dev nD) : W4 m ρ c (Proc.devRef .tc main_v26) = (dat1 (V3 m ρ) c).arrAt 5 cfg1.N :=
  W4_arr m ρ c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. Its arrays are split out of the unscoped
    buffers and put back at the exit contents; the scoped rest and the generator register go into the kernel's
    invariant (the scratch accumulator among them) and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4 (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, and the result's contents: the five arguments end as launched and the result buffer holds what the
    second region's write-backs leave. -/
theorem run_post : θ_run defs (onTc (τ := τ) (main (F := F))) ⟨m, fun _ => 0, ρ⟩ (fun r => ∀ c : Dev nD,
      r.2.mem ((c.tc : Thread nD τ).loc main_v26) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v26 (by decide))).trans (W4_main_v26 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- The frame claim alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_post m ρ)

end Cert.KernelIdeal.Hand

end
-- ==== Proof.KBlocks.lean ====
/-
  From blocks to arrays, for both kernels of the program, at any float instance.

  A window's block at a grid point is a rectangle of its array: the moving window of the first kernel is rows
  256·t … 256·t + 255 of the batch, that of the second kernel rows 512·t … 512·t + 511; every other input window's
  block is its whole array at every point. The first kernel's output window is its whole array, written back once,
  after the last point; the second kernel's output tiles partition the result's rows.
-/
import proofs.«165204_j34668976013857_1_alg».proof.Proof.KI.R0
import proofs.«165204_j34668976013857_1_alg».proof.Proof.KI.R1
import Idealize.ShloMosaic.Lib.Pipeline.Value
import Idealize.ShloMosaic.Lib.ValueIdx

set_option maxRecDepth 16384

noncomputable section

namespace Cert.KBlocks

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

/-! ## The printed index maps, decided once over each grid -/

/-- The first kernel's moving window: block index the point on the row axis, zero on the column axis. -/
theorem idx0_0 : ∀ t : Fin cfg0.N, win0_0.index t (0 : Fin 2) = t.val ∧ win0_0.index t (1 : Fin 2) = 0 :=
  (by decide +kernel : ∀ t : Fin grid0.N, _)
/-- Every other window of the first kernel, the output's included: block index zero on every axis. -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
/-- The second kernel's moving input window and its output window: the point on the row axis, zero on the column axis. -/
theorem idx1_0 : ∀ t : Fin cfg1.N, win1_0.index t (0 : Fin 2) = t.val ∧ win1_0.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
/-- Its resident windows: zero on every axis. -/
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 1) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)

/-! ## The first kernel's windows -/

/-- Row r of the tile at point t is row 256·t + r of the batch. -/
theorem iblk0_x (c : Dev nD) (t : Fin cfg0.N) (r : Fin 256) (i : Fin 1024) :
    (iblk0 V c 0 t : S256x1024.Idx → Elt F .f32) (ix2 r i)
      = (V c main_arg0 : S16384x1024.Idx → Elt F .f32)
          (ix2 (⟨256 * t.val + r.val, by have := t.isLt; have h : cfg0.N = 64 := N_0; omega⟩ : Fin 16384) i) := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 1024 + 1 * i.val = i.val; rw [e1]; omega

/-- The resident windows' blocks are their whole arrays, at every point. -/
theorem iblk0_wk (c : Dev nD) (t : Fin cfg0.N) : (iblk0 V c 1 t : S1024x1024.Idx → Elt F .bf16) = V c main_v13 := by
  obtain ⟨e0, e1⟩ := idx0_1 t
  funext y
  unfold iblk0
  rw [View.read_apply]
  show V c main_v13 _ = V c main_v13 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk0_wv (c : Dev nD) (t : Fin cfg0.N) : (iblk0 V c 2 t : S1024x1024.Idx → Elt F .bf16) = V c main_v15 := by
  obtain ⟨e0, e1⟩ := idx0_2 t
  funext y
  unfold iblk0
  rw [View.read_apply]
  show V c main_v15 _ = V c main_v15 y
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega
theorem iblk0_wlr (c : Dev nD) (t : Fin cfg0.N) : (iblk0 V c 3 t : S1024x128.Idx → Elt F .bf16) = V c main_v19 := by
  obtain ⟨e0, e1⟩ := idx0_3 t
  funext y
  unfold iblk0
  rw [View.read_apply]
  show V c main_v19 _ = V c main_v19 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 128 + 1 * (y 1).val = (y 1).val; rw [e1]; omega
theorem iblk0_bk (c : Dev nD) (t : Fin cfg0.N) : (iblk0 V c 4 t : S1024.Idx → Elt F .f32) = V c main_v4 := by
  have e0 := idx0_4 t
  funext y
  unfold iblk0
  rw [View.read_apply]
  show V c main_v4 _ = V c main_v4 y
  congr 1
  funext a
  apply Fin.ext
  match a with
  | ⟨0, _⟩ => show win0_4.index t (0 : Fin 1) * 1024 + 1 * (y 0).val = (y 0).val; rw [e0]; omega
theorem iblk0_bv (c : Dev nD) (t : Fin cfg0.N) : (iblk0 V c 5 t : S1024.Idx → Elt F .f32) = V c main_v5 := by
  have e0 := idx0_5 t
  funext y
  unfold iblk0
  rw [View.read_apply]
  show V c main_v5 _ = V c main_v5 y
  congr 1
  funext a
  apply Fin.ext
  match a with
  | ⟨0, _⟩ => show win0_5.index t (0 : Fin 1) * 1024 + 1 * (y 0).val = (y 0).val; rw [e0]; omega
theorem iblk0_blr (c : Dev nD) (t : Fin cfg0.N) : (iblk0 V c 6 t : S128.Idx → Elt F .f32) = V c main_v11 := by
  have e0 := idx0_6 t
  funext y
  unfold iblk0
  rw [View.read_apply]
  show V c main_v11 _ = V c main_v11 y
  congr 1
  funext a
  apply Fin.ext
  match a with
  | ⟨0, _⟩ => show win0_6.index t (0 : Fin 1) * 128 + 1 * (y 0).val = (y 0).val; rw [e0]; omega
theorem iblk0_wf (c : Dev nD) (t : Fin cfg0.N) : (iblk0 V c 7 t : S1024x1024.Idx → Elt F .bf16) = V c main_v21 := by
  obtain ⟨e0, e1⟩ := idx0_7 t
  funext y
  unfold iblk0
  rw [View.read_apply]
  show V c main_v21 _ = V c main_v21 y
  congr 1
  funext a
  apply Fin.ext
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega
theorem iblk0_bf (c : Dev nD) (t : Fin cfg0.N) : (iblk0 V c 8 t : S1024.Idx → Elt F .f32) = V c main_arg4 := by
  have e0 := idx0_8 t
  funext y
  unfold iblk0
  rw [View.read_apply]
  show V c main_arg4 _ = V c main_arg4 y
  congr 1
  funext a
  apply Fin.ext
  match a with
  | ⟨0, _⟩ => show win0_8.index t (0 : Fin 1) * 1024 + 1 * (y 0).val = (y 0).val; rw [e0]; omega

/-- The output window's block, read off any contents of its array, is those contents: the block is the whole array. -/
theorem blk0_9_read (G : S1024x1024.Idx → Elt F .f32) (t : Fin cfg0.N) :
    (((cfg0.win 9).blk t).view.read (Elt F) G : S1024x1024.Idx → Elt F .f32) = G := by
  obtain ⟨e0, e1⟩ := idx0_9 t
  funext y
  rw [View.read_apply]
  show G _ = G y
  congr 1
  funext a
  apply Fin.ext
  match a with
  | ⟨0, _⟩ => show win0_9.index t (0 : Fin 2) * 1024 + 1 * (y 0).val = (y 0).val; rw [e0]; omega
  | ⟨1, _⟩ => show win0_9.index t (1 : Fin 2) * 1024 + 1 * (y 1).val = (y 1).val; rw [e1]; omega

/-- The accumulator after point n depends on n only. -/
theorem accAt_congr (c : Dev nD) (n n' : ℕ) (hn : n < cfg0.N) (hn' : n' < cfg0.N) (e : n = n') :
    accAt V c n hn = accAt V c n' hn' := by
  subst e; rfl

/-- The one point that writes the output back is the last, and what it writes is the accumulator after it. -/
theorem flushed0_9_eq (c : Dev nD) (h63 : 63 < cfg0.N) (t : Fin cfg0.N) (hf : (cfg0.win 9).flush t = true) :
    (dat0 V c).flushed 9 t = ((cfg0.win 9).blk t).view.read (Elt F) (accAt V c 63 h63) := by
  have ht : t.val = 63 := by have := (flush0_9 t).mp hf; have := t.isLt; have hN : cfg0.N = 64 := N_0; omega
  show (cfg0.win 9).cut (grid0.coords t) ((dat0 V c).after 9 t) = _
  rw [after0_9, accAt_congr V c t.val 63 t.isLt h63 ht]
  exact (blk0_9_read (accAt V c 63 h63) t).symm

/-- An index of the array is in point t's block of the output window iff each coordinate is in the block's range. -/
theorem mem_blk0_9 (t : Fin cfg0.N) (i : S1024x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v22).slice (win0_9.rect t)).set ↔ _
  rw [View.set_slice_whole, Rect.mem_set_unit]
  exact Iff.rfl

/-- Every index of the output array lies in the last point's block. -/
theorem cover0_9 (i : S1024x1024.Idx) :
    ∃ t : Fin cfg0.N, (cfg0.win 9).flush t = true ∧ i ∈ ((cfg0.win 9).blk t).view.set := by
  have hN : cfg0.N = 64 := N_0
  have hi0 : (i 0).val < 1024 := (i 0).isLt
  have hi1 : (i 1).val < 1024 := (i 1).isLt
  obtain ⟨t, ht⟩ : ∃ t : Fin cfg0.N, t.val = 63 := ⟨⟨63, by omega⟩, rfl⟩
  obtain ⟨e0, e1⟩ := idx0_9 t
  refine ⟨t, (flush0_9 t).mpr (by omega), ?_⟩
  rw [mem_blk0_9]
  intro a
  match a with
  | ⟨0, _⟩ => show win0_9.index t (0 : Fin 2) * 1024 ≤ (i 0).val ∧ (i 0).val < win0_9.index t (0 : Fin 2) * 1024 + 1024; rw [e0]; omega
  | ⟨1, _⟩ => show win0_9.index t (1 : Fin 2) * 1024 ≤ (i 1).val ∧ (i 1).val < win0_9.index t (1 : Fin 2) * 1024 + 1024; rw [e1]; omega

/-- The first kernel's result: its output window is the whole array, written back after the last point only, so the
    array ends at the accumulator after the last point. -/
theorem out0_final (c : Dev nD) :
    ((dat0 V c).arrAt 9 cfg0.N : S1024x1024.Idx → Elt F .f32) = accAt V c 63 (by rw [show cfg0.N = 64 from N_0]; omega) := by
  exact (dat0 V c).arrAt_eq_of_cover 9 (accAt V c 63 _) (fun t hf => flushed0_9_eq V c _ t hf) cover0_9

/-! ## The second kernel's windows -/

/-- Row r of the tile at point t is row 512·t + r of the batch. -/
theorem iblk1_x (c : Dev nD) (t : Fin cfg1.N) (r : Fin 512) (i : Fin 1024) :
    (iblk1 V c 0 t : S512x1024.Idx → Elt F .f32) (ix2 r i)
      = (V c main_arg0 : S16384x1024.Idx → Elt F .f32)
          (ix2 (⟨512 * t.val + r.val, by have := t.isLt; have h : cfg1.N = 32 := N_1; omega⟩ : Fin 16384) i) := by
  obtain ⟨e0, e1⟩ := idx1_0 t
  unfold iblk1
  rw [View.read_apply]
  show V c main_arg0 _ = V c main_arg0 _
  congr 1
  funext a
  apply Fin.ext
  match a with
  | ⟨0, _⟩ => show win1_0.index t (0 : Fin 2) * 512 + 1 * r.val = 512 * t.val + r.val; rw [e0]; omega
  | ⟨1, _⟩ => show win1_0.index t (1 : Fin 2) * 1024 + 1 * i.val = i.val; rw [e1]; omega
theorem iblk1_wq (c : Dev nD) (t : Fin cfg1.N) : (iblk1 V c 1 t : S1024x1024.Idx → Elt F .bf16) = V c main_v17 := by
  obtain ⟨e0, e1⟩ := idx1_1 t
  funext y
  unfold iblk1
  rw [View.read_apply]
  show V c main_v17 _ = V c main_v17 y
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega
theorem iblk1_bq (c : Dev nD) (t : Fin cfg1.N) : (iblk1 V c 2 t : S1024.Idx → Elt F .f32) = V c main_v6 := by
  have e0 := idx1_2 t
  funext y
  unfold iblk1
  rw [View.read_apply]
  show V c main_v6 _ = V c main_v6 y
  congr 1
  funext a
  apply Fin.ext
  match a with
  | ⟨0, _⟩ => show win1_2.index t (0 : Fin 1) * 1024 + 1 * (y 0).val = (y 0).val; rw [e0]; omega
theorem iblk1_wn (c : Dev nD) (t : Fin cfg1.N) : (iblk1 V c 3 t : S1024x1024.Idx → Elt F .bf16) = V c main_v25 := by
  obtain ⟨e0, e1⟩ := idx1_3 t
  funext y
  unfold iblk1
  rw [View.read_apply]
  show V c main_v25 _ = V c main_v25 y
  congr 1
  funext a
  apply Fin.ext
  match a with
  | ⟨0, _⟩ => show win1_3.index t (0 : Fin 2) * 1024 + 1 * (y 0).val = (y 0).val; rw [e0]; omega
  | ⟨1, _⟩ => show win1_3.index t (1 : Fin 2) * 1024 + 1 * (y 1).val = (y 1).val; rw [e1]; omega
theorem iblk1_bf (c : Dev nD) (t : Fin cfg1.N) : (iblk1 V c 4 t : S1024.Idx → Elt F .f32) = V c main_arg4 := by
  have e0 := idx1_4 t
  funext y
  unfold iblk1
  rw [View.read_apply]
  show V c main_arg4 _ = V c main_arg4 y
  congr 1
  funext a
  apply Fin.ext
  match a with
  | ⟨0, _⟩ => show win1_4.index t (0 : Fin 1) * 1024 + 1 * (y 0).val = (y 0).val; rw [e0]; omega

/-- Row r of the output window's block at point t, read off any contents G of its array, is G at row 512·t + r. -/
theorem blk1_5_read (G : S16384x1024.Idx → Elt F .f32) (t : Fin cfg1.N) (r : Fin 512) (o : Fin 1024) :
    (((cfg1.win 5).blk t).view.read (Elt F) G : S512x1024.Idx → Elt F .f32) (ix2 r o)
      = G (ix2 (⟨512 * t.val + r.val, by have := t.isLt; have h : cfg1.N = 32 := N_1; omega⟩ : Fin 16384) o) := by
  obtain ⟨e0, e1⟩ := idx1_5 t
  rw [View.read_apply]
  show G _ = G _
  congr 1
  funext a
  apply Fin.ext
  match a with
  | ⟨0, _⟩ => show win1_5.index t (0 : Fin 2) * 512 + 1 * r.val = 512 * t.val + r.val; rw [e0]; omega
  | ⟨1, _⟩ => show win1_5.index t (1 : Fin 2) * 1024 + 1 * o.val = o.val; rw [e1]; omega

/-- What point t writes back is its block of G, when its tile is its rows of G. -/
theorem flushed1_5_eq (c : Dev nD) (G : S16384x1024.Idx → Elt F .f32)
    (hG : ∀ (t : Fin cfg1.N) (r : Fin 512) (o : Fin 1024),
      (step1 (iblk1 V c 0 t) (iblk1 V c 1 t) (iblk1 V c 2 t) (iblk1 V c 3 t) (iblk1 V c 4 t) : S512x1024.Idx → Elt F .f32) (ix2 r o)
        = G (ix2 (⟨512 * t.val + r.val, by have := t.isLt; have h : cfg1.N = 32 := N_1; omega⟩ : Fin 16384) o))
    (t : Fin cfg1.N) :
    (dat1 V c).flushed 5 t = ((cfg1.win 5).blk t).view.read (Elt F) G := by
  show (cfg1.win 5).cut (grid1.coords t) ((dat1 V c).after 5 t) = _
  rw [after1_5]
  refine funext fun (j : S512x1024.Idx) => ?_
  rw [eq_ix2 j]
  exact (hG t (j 0) (j 1)).trans (blk1_5_read G t (j 0) (j 1)).symm

/-- An index of the array is in point t's block of the output window iff each coordinate is in the block's range. -/
theorem mem_blk1_5 (t : Fin cfg1.N) (i : S16384x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v26).slice (win1_5.rect t)).set ↔ _
  rw [View.set_slice_whole, Rect.mem_set_unit]
  exact Iff.rfl

/-- Row b of the result lies in the block of point b / 512: the 32 tiles of 512 rows cover the 16384 rows. -/
theorem cover1_5 (i : S16384x1024.Idx) :
    ∃ t : Fin cfg1.N, (cfg1.win 5).flush t = true ∧ i ∈ ((cfg1.win 5).blk t).view.set := by
  have hN : cfg1.N = 32 := N_1
  have hi0 : (i 0).val < 16384 := (i 0).isLt
  have hi1 : (i 1).val < 1024 := (i 1).isLt
  obtain ⟨t, ht⟩ : ∃ t : Fin cfg1.N, t.val = (i 0).val / 512 := ⟨⟨(i 0).val / 512, by omega⟩, rfl⟩
  obtain ⟨e0, e1⟩ := idx1_5 t
  refine ⟨t, flush1_5 t, ?_⟩
  rw [mem_blk1_5]
  intro a
  match a with
  | ⟨0, _⟩ => show win1_5.index t (0 : Fin 2) * 512 ≤ (i 0).val ∧ (i 0).val < win1_5.index t (0 : Fin 2) * 512 + 512; rw [e0]; omega
  | ⟨1, _⟩ => show win1_5.index t (1 : Fin 2) * 1024 ≤ (i 1).val ∧ (i 1).val < win1_5.index t (1 : Fin 2) * 1024 + 1024; rw [e1]; omega

/-- The second kernel's result: if every point's output tile is its rows of ONE whole-array function G, the array
    ends holding G (the 32 tiles of 512 rows cover the 16384 rows). -/
theorem out1_final (c : Dev nD) (G : S16384x1024.Idx → Elt F .f32)
    (hG : ∀ (t : Fin cfg1.N) (r : Fin 512) (o : Fin 1024),
      (step1 (iblk1 V c 0 t) (iblk1 V c 1 t) (iblk1 V c 2 t) (iblk1 V c 3 t) (iblk1 V c 4 t) : S512x1024.Idx → Elt F .f32) (ix2 r o)
        = G (ix2 (⟨512 * t.val + r.val, by have := t.isLt; have h : cfg1.N = 32 := N_1; omega⟩ : Fin 16384) o)) :
    ((dat1 V c).arrAt 5 cfg1.N : S16384x1024.Idx → Elt F .f32) = G := by
  exact (dat1 V c).arrAt_eq_of_cover 5 G (fun t _ => flushed1_5_eq V c G hG t) cover1_5

end Cert.KBlocks

end
-- ==== Proof.Spec.lean ====
/-
  The mathematics both programs compute, index by index over the extended reals, free of any tiling.

  A batch of 16384 rows x is projected by one dense layer (weights Ws, bias bs) into keys k, values v, queries q
  (1024 columns each) and one learning-rate logit per row. With the row softmax smx and the logistic function,
      vbar(b, o)  = Σ_h smx(k_b)(h) · Wf(o, h) + bf(o)
      term(b, o)  = logistic(lr-logit_b) · (v(b, o) − vbar(b, o))
      delta(o, h) = (Σ_b term(b, o) · logistic(k(b, h))) / 16384
      Wn(o, h)    = Wf(o, h) + delta(o, h)
      out(b, o)   = Σ_h smx(q_b)(h) · Wn(o, h) + bf(o).
  The kernel forms delta tile by tile (64 tiles of 256 rows), scaling every term by 2^-14 before the products are
  summed; `accK_all` says the two arrangements are one extended real.
-/
import Idealize.ShloMosaic.PureOps.Ideal.Laws
import Idealize.ShloMosaic.Lib.ValueIdx
import Mathlib.Data.EReal.Operations
import Mathlib.Data.EReal.Inv
import Mathlib.Algebra.BigOperators.Fin
import Mathlib.Logic.Equiv.Fin.Basic

noncomputable section

namespace Cert.Spec

open Idealize.ShloMosaic Idealize.ShloMosaic.ValueIdx

/-- The words of -∞, of 2^-14 and of 16384 as the programs print them. -/
abbrev negInf : EReal := Ideal.ofBits .f32 0xFF800000#32
abbrev cInv : EReal := Ideal.ofBits .f32 0x38800000#32
abbrev cB : EReal := Ideal.ofBits .f32 0x46800000#32

/-- The largest entry of a row, folded from -∞ (and compared with -∞ once more, as both programs do). -/
def rowMax (r : Fin 1024 → EReal) : EReal := max negInf (Finset.univ.fold max negInf r)

/-- The softmax of a row at entry h: exp(r_h − max r) over the sum of those exponentials. -/
def smx (r : Fin 1024 → EReal) (h : Fin 1024) : EReal :=
  Ideal.div (Ideal.exp (r h - rowMax r)) (∑ h' : Fin 1024, Ideal.exp (r h' - rowMax r))

section Model

variable (x : Fin 16384 → Fin 1024 → EReal) (Ws : Fin 3073 → Fin 1024 → EReal) (bs : Fin 3073 → EReal)
  (Wf : Fin 1024 → Fin 1024 → EReal) (bf : Fin 1024 → EReal)

/-- The dense projection: row b against weight row j, plus the bias. -/
def proj (b : Fin 16384) (j : Fin 3073) : EReal := (∑ i : Fin 1024, x b i * Ws j i) + bs j
/-- Keys, values, queries: columns 0–1023, 1024–2047, 2048–3071 of the projection. -/
def kk (b : Fin 16384) (h : Fin 1024) : EReal := proj x Ws bs b ⟨h.val, by omega⟩
def vv (b : Fin 16384) (o : Fin 1024) : EReal := proj x Ws bs b ⟨1024 + o.val, by omega⟩
def qq (b : Fin 16384) (h : Fin 1024) : EReal := proj x Ws bs b ⟨2048 + h.val, by omega⟩
/-- The learning rate of a row: the logistic function of column 3072. -/
def lr (b : Fin 16384) : EReal := Ideal.logistic (proj x Ws bs b ⟨3072, by omega⟩)
/-- The fast weights read with the softmax of the keys. -/
def vbar (b : Fin 16384) (o : Fin 1024) : EReal := (∑ h : Fin 1024, smx (kk x Ws bs b) h * Wf o h) + bf o
/-- The delta rule's error term of a row. -/
def term (b : Fin 16384) (o : Fin 1024) : EReal := lr x Ws bs b * (vv x Ws bs b o - vbar x Ws bs Wf bf b o)
/-- The update, as the reference forms it: the whole batch summed, then divided by the batch size. -/
def deltaRef (o h : Fin 1024) : EReal :=
  Ideal.div (∑ b : Fin 16384, term x Ws bs Wf bf b o * Ideal.logistic (kk x Ws bs b h)) cB
/-- The updated fast weights. -/
def Wn (o h : Fin 1024) : EReal := Wf o h + deltaRef x Ws bs Wf bf o h
/-- The result: the updated fast weights read with the softmax of the queries. -/
def out (b : Fin 16384) (o : Fin 1024) : EReal :=
  (∑ h : Fin 1024, smx (qq x Ws bs b) h * Wn x Ws bs Wf bf o h) + bf o

/-- Row r of tile t. -/
def rowOf (t : Fin 64) (r : Fin 256) : Fin 16384 := ⟨256 * t.val + r.val, by omega⟩
/-- One tile's share of the update, as the kernel forms it: each term scaled by 2^-14 first. -/
def partialK (t : Fin 64) (o h : Fin 1024) : EReal :=
  ∑ r : Fin 256, (term x Ws bs Wf bf (rowOf t r) o * cInv) * Ideal.logistic (kk x Ws bs (rowOf t r) h)
/-- The kernel's accumulator after n tiles, from zero. -/
def accK : (n : Nat) → n ≤ 64 → Fin 1024 → Fin 1024 → EReal
  | 0, _ => fun _ _ => 0
  | n + 1, hn => fun o h => accK n (Nat.le_of_succ_le hn) o h + partialK x Ws bs Wf bf ⟨n, hn⟩ o h

/-- The word 0x46800000 denotes the real 16384. -/
theorem cB_eq : cB = ((16384 : ℝ) : EReal) := by
  simp [cB, Ideal.ofBits, Ideal.ieee, -EReal.coe_mul]
  norm_num

/-- The word 0x38800000 denotes the real 1/16384. -/
theorem cInv_eq : cInv = (((16384 : ℝ)⁻¹ : ℝ) : EReal) := by
  simp [cInv, Ideal.ofBits, Ideal.ieee, -EReal.coe_mul]
  norm_num

/-- Dividing by 16384 is multiplying by 2^-14, for every extended real. -/
theorem div_cB (s : EReal) : Ideal.div s cB = cInv * s := by
  have h0 : cB ≠ 0 := by
    rw [cB_eq]; exact_mod_cast (by norm_num : (16384 : ℝ) ≠ 0)
  unfold Ideal.div
  rw [if_neg h0, cB_eq, cInv_eq, ← EReal.coe_inv, EReal.mul_comm]

/-- Multiplication by a non-negative real distributes over any finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- In particular 2^-14 moves inside any finite sum of extended reals. -/
theorem cInv_mul_sum {ι : Type*} (s : Finset ι) (f : ι → EReal) :
    cInv * ∑ i ∈ s, f i = ∑ i ∈ s, cInv * f i := by
  rw [cInv_eq]
  exact coe_mul_sum s _ (by positivity) f

/-- 64 tiles of 256 rows are the 16384 rows, each once. -/
theorem sum_tiles (F : Fin 16384 → EReal) :
    ∑ t : Fin 64, ∑ r : Fin 256, F (rowOf t r) = ∑ b : Fin 16384, F b := by
  rw [← Fintype.sum_prod_type']
  refine Fintype.sum_equiv (finProdFinEquiv (m := 64) (n := 256)) _ _ ?_
  rintro ⟨t, r⟩
  congr 1
  ext
  simp [rowOf, finProdFinEquiv]
  omega

/-- The accumulator after n tiles is the sum of the first n tiles' shares. -/
theorem accK_eq_sum (n : Nat) (hn : n ≤ 64) (o h : Fin 1024) :
    accK x Ws bs Wf bf n hn o h = ∑ t : Fin n, partialK x Ws bs Wf bf (Fin.castLE hn t) o h := by
  induction n with
  | zero => simp [accK]
  | succ n ih =>
    show accK x Ws bs Wf bf n (Nat.le_of_succ_le hn) o h + partialK x Ws bs Wf bf ⟨n, hn⟩ o h = _
    rw [ih (Nat.le_of_succ_le hn), Fin.sum_univ_castSucc]
    rfl

/-- THE LAW: after all 64 tiles the accumulator is the reference's update. Sums of extended reals commute and
    associate; 2^-14 is a positive real, and multiplication by a non-negative real distributes over any sum of
    extended reals; dividing by 16384 is multiplying by its inverse. No finiteness is needed. -/
theorem accK_all (o h : Fin 1024) : accK x Ws bs Wf bf 64 (le_refl _) o h = deltaRef x Ws bs Wf bf o h := by
  rw [accK_eq_sum]
  unfold deltaRef
  rw [div_cB, cInv_mul_sum,
    ← sum_tiles (fun b => cInv * (term x Ws bs Wf bf b o * Ideal.logistic (kk x Ws bs b h)))]
  refine Finset.sum_congr rfl fun t _ => ?_
  show partialK x Ws bs Wf bf t o h = _
  unfold partialK
  refine Finset.sum_congr rfl fun r _ => ?_
  rw [mul_comm (term x Ws bs Wf bf (rowOf t r) o) cInv, mul_assoc]

end Model

/-- The five argument arrays' shapes. -/
abbrev SX : Shape := ⟨2, ![16384, 1024]⟩
abbrev SW : Shape := ⟨2, ![3073, 1024]⟩
abbrev SB : Shape := ⟨1, ![3073]⟩
abbrev SF : Shape := ⟨2, ![1024, 1024]⟩
abbrev SV : Shape := ⟨1, ![1024]⟩

/-- The result as ONE function of the five argument arrays. -/
def G (a0 : SX.Idx → EReal) (a1 : SW.Idx → EReal) (a2 : SB.Idx → EReal) (a3 : SF.Idx → EReal) (a4 : SV.Idx → EReal) :
    SX.Idx → EReal := fun i =>
  out (fun b k => a0 (ix2 b k)) (fun j k => a1 (ix2 j k)) (fun j => a2 (ix1 j)) (fun o h => a3 (ix2 o h)) (fun o => a4 (ix1 o))
    (i 0) (i 1)

theorem G_apply (a0 : SX.Idx → EReal) (a1 : SW.Idx → EReal) (a2 : SB.Idx → EReal) (a3 : SF.Idx → EReal) (a4 : SV.Idx → EReal)
    (b : Fin 16384) (o : Fin 1024) :
    G a0 a1 a2 a3 a4 (ix2 b o)
      = out (fun b k => a0 (ix2 b k)) (fun j k => a1 (ix2 j k)) (fun j => a2 (ix1 j)) (fun o h => a3 (ix2 o h)) (fun o => a4 (ix1 o)) b o := rfl

end Cert.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KPay0.lean ====
/-
  One point of the first kernel, read at an entry of its accumulator, at the extended reals.
-/
import proofs.«165204_j34668976013857_1_alg».proof.Proof.KI.Step
import proofs.«165204_j34668976013857_1_alg».proof.Proof.Spec
import proofs.«165204_j34668976013857_1_alg».proof.Proof.LibPlainDot
import Idealize.ShloMosaic.Lib.Pipeline.Value
import Idealize.ShloMosaic.Lib.ValueLayout

noncomputable section

namespace Cert.KPay0

open Idealize.ShloMosaic Idealize.ShloMosaic.ValueIdx Cert.KernelIdeal Cert.KernelIdeal.Gen Cert.KernelIdeal.Hand

/-! ## The dense layers of a tile -/

/-- The tile recast to the matrix unit's input format is the tile itself. -/
theorem pay3_apply (x : Vec Ideal S256x1024 .f32) (j : S256x1024.Idx) : k0_pay3 (F := Ideal) x j = x j := rfl

/-- A dense layer of the tile at (r, h): the row of the tile against the weight column, plus the bias. -/
theorem pay4_apply (x : Vec Ideal S256x1024 .f32) (w : Vec Ideal S1024x1024 .bf16) (b : Vec Ideal S1024 .f32)
    (r : Fin 256) (h : Fin 1024) :
    k0_pay4 (F := Ideal) x w b (ix2 r h) = (∑ i : Fin 1024, x (ix2 r i) * w (ix2 i h)) + b (ix1 h) := by
  unfold k0_pay4
  refine (addf_apply _ _ _).trans ?_
  refine congrArg₂ (· + ·) ?_ ?_
  · rw [shapeCast_self]
    exact Cert.LibPlainDot.matmul_plain_zero (M := 256) (K := 1024) (N := 1024) none (k0_pay3 (F := Ideal) x) w (ix2 r h)
  · rw [shapeCast_self]
    exact Cert.LibPlainDot.rowBroadcastTo_apply b _ _ r h

/-- The second dense layer is formed exactly as the first. -/
theorem pay5_apply (x : Vec Ideal S256x1024 .f32) (w : Vec Ideal S1024x1024 .bf16) (b : Vec Ideal S1024 .f32)
    (r : Fin 256) (h : Fin 1024) :
    k0_pay5 (F := Ideal) x w b (ix2 r h) = (∑ i : Fin 1024, x (ix2 r i) * w (ix2 i h)) + b (ix1 h) :=
  pay4_apply x w b r h

/-! ## The exponential and the logistic at an index -/

/-- An exponential at an index is the exponential of the element. -/
theorem exp_apply {s : Shape} {φ : FTy} (a : FVec Ideal s φ) (i : s.Idx) : exp a i = Ideal.exp (a i) := rfl
/-- A logistic at an index is the logistic of the element. -/
theorem logistic_apply {s : Shape} {φ : FTy} (a : FVec Ideal s φ) (i : s.Idx) : logistic a i = Ideal.logistic (a i) := rfl

/-! ## Keepdims columns -/

/-- A column broadcast along the rows reads, at (p, q), the column at p. -/
theorem colBroadcast_apply {α : Type} {R C : Nat} (v : (⟨2, ![R, 1]⟩ : Shape).Idx → α)
    (h2 : (⟨2, ![R, 1]⟩ : Shape).Broadcasts ⟨2, ![R, C]⟩) (p : Fin R) (q : Fin C) :
    broadcastTo ⟨2, ![R, C]⟩ v h2 (ix2 p q) = v (ix2 p (0 : Fin 1)) :=
  broadcastTo_apply v h2 (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])

/-- A vector recast as a column reads, at (p, 0), the vector at p. -/
theorem colCast_apply {α : Type} {R : Nat} (v : (⟨1, ![R]⟩ : Shape).Idx → α)
    (h1 : (⟨1, ![R]⟩ : Shape).ShapeCasts ⟨2, ![R, 1]⟩) (p : Fin R) :
    shapeCast ⟨2, ![R, 1]⟩ v h1 (ix2 p (0 : Fin 1)) = v (ix1 p) :=
  shapeCast_apply v h1 (ix2 p (0 : Fin 1)) (ix1 p) (by
    rw [Shape.rowMajor_val_one, Shape.rowMajor_val_two]
    show p.val = p.val * 1 + 0
    omega)

/-- A vector recast as a column and broadcast along the rows (a row statistic kept as a column) reads, at (p, q), the vector at p. -/
theorem colBroadcastTo_apply {α : Type} {R C : Nat} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (p : Fin R) (q : Fin C) :
    broadcastTo ⟨2, ![R, C]⟩ (shapeCast ⟨2, ![R, 1]⟩ v h1) h2 (ix2 p q) = v (ix1 p) :=
  (colBroadcast_apply _ h2 p q).trans (colCast_apply v h1 p)

/-- The index a reduction over the columns inserts coordinate k into, at row p, is (p, k). -/
theorem lift_row {R C : Nat} (h : (⟨2, ![R, C]⟩ : Shape).Reduces [1] ⟨1, ![R]⟩) (p : Fin R) (k : Fin C) :
    h.lift (ix1 p) k = ix2 p k := by
  funext a
  refine Fin.ext ?_
  match a with
  | ⟨0, _⟩ => rfl
  | ⟨1, _⟩ => rfl

/-! ## The payloads of one point -/

/-- The learning rate of tile row r: the logistic of column 0 of the third dense layer. -/
theorem pay6_apply (x : Vec Ideal S256x1024 .f32) (w : Vec Ideal S1024x128 .bf16) (b : Vec Ideal S128 .f32) (r : Fin 256) :
    k0_pay6 (F := Ideal) x w b (ix2 r (0 : Fin 1))
      = Ideal.logistic ((∑ i : Fin 1024, x (ix2 r i) * w (ix2 i (0 : Fin 128))) + b (ix1 (0 : Fin 128))) := by
  unfold k0_pay6
  refine (logistic_apply _ _).trans (congrArg Ideal.logistic ?_)
  refine (slice2_axis1_apply 0 _ _ r (0 : Fin 1) (0 : Fin 128) rfl).trans ?_
  refine (addf_apply _ _ _).trans ?_
  refine congrArg₂ (· + ·) ?_ ?_
  · rw [shapeCast_self]
    exact Cert.LibPlainDot.matmul_plain_zero (M := 256) (K := 1024) (N := 128) none (k0_pay3 (F := Ideal) x) w (ix2 r (0 : Fin 128))
  · rw [shapeCast_self]
    exact Cert.LibPlainDot.rowBroadcastTo_apply b _ _ r (0 : Fin 128)

/-- The row maximum as the kernel takes it is the specification's. -/
theorem rowmax_apply (y : FVec Ideal S256x1024 .f32) (r : Fin 256) :
    max (Spec.negInf) (multiReduction (F := Ideal) .maximumf [1] S256 y 0xFF800000#32 reduces_S256x1024_S256 (.inl rfl) rfl (ix1 r))
      = Spec.rowMax (fun h' : Fin 1024 => y (ix2 r h')) := by
  unfold Spec.rowMax
  refine congrArg (max Spec.negInf) ?_
  refine (Ideal.multiReduction_maximumf_single y 0xFF800000#32 reduces_S256x1024_S256 (.inl rfl) rfl (ix1 r)).trans ?_
  exact congrArg (fun f : Fin 1024 → EReal => Finset.univ.fold max Spec.negInf f)
    (funext fun k => congrArg y (lift_row reduces_S256x1024_S256 r k))

/-- The softmax numerator at (r, h): the exponential of the key minus the row maximum. -/
theorem pay7_apply (x : Vec Ideal S256x1024 .f32) (w : Vec Ideal S1024x1024 .bf16) (b : Vec Ideal S1024 .f32)
    (r : Fin 256) (h : Fin 1024) :
    k0_pay7 (F := Ideal) x w b (ix2 r h)
      = Ideal.exp (k0_pay4 (F := Ideal) x w b (ix2 r h) - Spec.rowMax (fun h' : Fin 1024 => k0_pay4 (F := Ideal) x w b (ix2 r h'))) := by
  unfold k0_pay7
  generalize k0_pay4 (F := Ideal) x w b = y
  refine (exp_apply _ _).trans (congrArg Ideal.exp ?_)
  refine (subf_apply _ _ _).trans (congrArg (y (ix2 r h) - ·) ?_)
  refine (colBroadcastTo_apply _ _ _ r h).trans ?_
  refine (maximumf_apply _ _ _).trans ?_
  exact rowmax_apply y r

/-- The softmax denominator of row r: the sum of the numerators. -/
theorem pay8_apply (x : Vec Ideal S256x1024 .f32) (w : Vec Ideal S1024x1024 .bf16) (b : Vec Ideal S1024 .f32) (r : Fin 256) :
    k0_pay8 (F := Ideal) x w b (ix1 r) = ∑ h' : Fin 1024, k0_pay7 (F := Ideal) x w b (ix2 r h') := by
  unfold k0_pay8
  generalize k0_pay7 (F := Ideal) x w b = y
  refine (Ideal.multiReduction_add_single y 0x00000000#32 reduces_S256x1024_S256 (.inl rfl) rfl (ix1 r)).trans ?_
  exact Finset.sum_congr rfl fun k _ => congrArg y (lift_row reduces_S256x1024_S256 r k)

/-! ## The outer product: both operands contracted along the tile's rows -/

/-- The four coordinates of the two operand indices: the contracted axis is axis 0 of both operands, the kept axis is
    axis 1; the left operand's kept coordinate is the output's row, the right operand's the output's column. -/
theorem lhs_outer_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
theorem lhs_outer_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
theorem rhs_outer_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
theorem rhs_outer_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- The product that contracts the rows of both operands, into zero, at (o, h): Σ_r l(r, o) · m(r, h). -/
theorem outer_zero {φ₁ φ₂ : FTy} (l : FVec Ideal S256x1024 φ₁) (m : FVec Ideal S256x1024 φ₂) (o h : Fin 1024) :
    FloatOps.matmul dot_S256x1024_S256x1024_S1024x1024_0_0_1_1_n_n none l m (constant S1024x1024 .f32 0x00000000#32) (ix2 o h)
      = ∑ r : Fin 256, (l (ix2 r o) : EReal) * (m (ix2 r h) : EReal) := by
  rw [Ideal.matmul_constant_zero_apply, ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 o h) ((contrEquiv1 dot_S256x1024_S256x1024_S1024x1024_0_0_1_1_n_n 256 rfl rfl).symm k) = ix2 k o := funext fun a => Fin.ext (by
    match a with
    | ⟨0, _⟩ => exact (lhs_outer_0 _ _).trans hk
    | ⟨1, _⟩ => exact lhs_outer_1 _ _)
  have er : dot_S256x1024_S256x1024_S1024x1024_0_0_1_1_n_n.rhsIdx (ix2 o h) ((contrEquiv1 dot_S256x1024_S256x1024_S1024x1024_0_0_1_1_n_n 256 rfl rfl).symm k) = ix2 k h := funext fun a => Fin.ext (by
    match a with
    | ⟨0, _⟩ => exact (rhs_outer_0 _ _).trans hk
    | ⟨1, _⟩ => exact rhs_outer_1 _ _)
  rw [el, er]

/-- The accumulator's entry (o, h) after one point, over the five tile quantities it is handed. -/
theorem pay1_apply (v12 v20 : FVec Ideal S256x1024 .f32) (v30 : FVec Ideal S256x1 .f32) (v37 : FVec Ideal S256x1024 .f32)
    (v38 : FVec Ideal S256 .f32) (wf : Vec Ideal S1024x1024 .bf16) (bf : Vec Ideal S1024 .f32) (acc : Vec Ideal S1024x1024 .f32)
    (o h : Fin 1024) :
    k0_pay1 (F := Ideal) v12 v20 v30 v37 v38 wf bf acc (ix2 o h)
      = acc (ix2 o h)
        + ∑ r : Fin 256,
            ((v30 (ix2 r (0 : Fin 1))
                * (v20 (ix2 r o)
                    - ((∑ h' : Fin 1024, Ideal.div (v37 (ix2 r h')) (v38 (ix1 r)) * wf (ix2 h' o)) + bf (ix1 o))))
              * Spec.cInv)
            * Ideal.logistic (v12 (ix2 r h)) := by
  unfold k0_pay1
  simp only [shapeCast_self]
  refine (addf_apply _ _ _).trans (congrArg (acc (ix2 o h) + ·) ?_)
  refine (outer_zero _ _ o h).trans (Finset.sum_congr rfl fun r _ => ?_)
  refine congrArg₂ (· * ·) ?_ rfl
  refine (mulf_apply _ _ _).trans (congrArg₂ (· * ·) ?_ rfl)
  refine (mulf_apply _ _ _).trans (congrArg₂ (· * ·) (colBroadcast_apply v30 _ r o) ?_)
  refine (subf_apply _ _ _).trans (congrArg (v20 (ix2 r o) - ·) ?_)
  refine (addf_apply _ _ _).trans (congrArg₂ (· + ·) ?_ (Cert.LibPlainDot.rowBroadcastTo_apply bf _ _ r o))
  refine (Cert.LibPlainDot.matmul_plain_zero (M := 256) (K := 1024) (N := 1024) (φ₁ := .bf16) (φ₂ := .bf16) none _ wf (ix2 r o)).trans ?_
  refine Finset.sum_congr rfl fun h' _ => congrArg (· * wf (ix2 h' o)) ?_
  refine (divf_apply _ _ _).trans ?_
  exact congrArg (Ideal.div (v37 (ix2 r h'))) (colBroadcastTo_apply v38 _ _ r h')

/-! ## One point -/

/-- The accumulator the first point starts from is zero at every entry. -/
theorem zero0_apply (o h : Fin 1024) : zero0 (F := Ideal) (ix2 o h) = (0 : EReal) := by
  unfold zero0 k0_pay2
  rw [shapeCast_self]
  exact Ideal.ofBits_zero_f32

/-- Entry (o, h) of the accumulator after one point. With, for tile row r,
      k_r(h') = Σ_i x(r,i)·wk(i,h') + bk(h'),   v_r(o) = Σ_i x(r,i)·wv(i,o) + bv(o),
      lr_r = logistic(Σ_i x(r,i)·wlr(i,0) + blr(0)),   vbar_r(o) = Σ_h' softmax(k_r)(h')·wf(h',o) + bf(o),
    it is acc(o,h) + Σ_r ((lr_r · (v_r(o) − vbar_r(o))) · 2^-14) · logistic(k_r(h)). -/
theorem step0_apply (x : Vec Ideal S256x1024 .f32) (wk wv : Vec Ideal S1024x1024 .bf16) (wlr : Vec Ideal S1024x128 .bf16)
    (bk bv : Vec Ideal S1024 .f32) (blr : Vec Ideal S128 .f32) (wf : Vec Ideal S1024x1024 .bf16) (bf : Vec Ideal S1024 .f32)
    (acc : Vec Ideal S1024x1024 .f32) (o h : Fin 1024) :
    step0 (F := Ideal) x wk wv wlr bk bv blr wf bf acc (ix2 o h)
      = acc (ix2 o h)
        + ∑ r : Fin 256,
            ((Ideal.logistic ((∑ i : Fin 1024, x (ix2 r i) * wlr (ix2 i (0 : Fin 128))) + blr (ix1 (0 : Fin 128)))
                * (((∑ i : Fin 1024, x (ix2 r i) * wv (ix2 i o)) + bv (ix1 o))
                    - ((∑ h' : Fin 1024,
                          Spec.smx (fun h'' : Fin 1024 => (∑ i : Fin 1024, x (ix2 r i) * wk (ix2 i h'')) + bk (ix1 h'')) h'
                            * wf (ix2 h' o))
                        + bf (ix1 o))))
              * Spec.cInv)
            * Ideal.logistic ((∑ i : Fin 1024, x (ix2 r i) * wk (ix2 i h)) + bk (ix1 h)) := by
  unfold step0
  refine (pay1_apply _ _ _ _ _ wf bf acc o h).trans (congrArg (acc (ix2 o h) + ·) (Finset.sum_congr rfl fun r _ => ?_))
  have hrow : (fun h' : Fin 1024 => k0_pay4 (F := Ideal) x wk bk (ix2 r h'))
      = fun h'' : Fin 1024 => (∑ i : Fin 1024, x (ix2 r i) * wk (ix2 i h'')) + bk (ix1 h'') :=
    funext fun h' => pay4_apply x wk bk r h'
  have hnum : ∀ h' : Fin 1024, k0_pay7 (F := Ideal) x wk bk (ix2 r h')
      = Ideal.exp (((∑ i : Fin 1024, x (ix2 r i) * wk (ix2 i h')) + bk (ix1 h'))
          - Spec.rowMax (fun h'' : Fin 1024 => (∑ i : Fin 1024, x (ix2 r i) * wk (ix2 i h'')) + bk (ix1 h''))) := fun h' => by
    rw [pay7_apply, hrow, pay4_apply]
  have hsmx : ∀ h' : Fin 1024, Ideal.div (k0_pay7 (F := Ideal) x wk bk (ix2 r h')) (k0_pay8 (F := Ideal) x wk bk (ix1 r))
      = Spec.smx (fun h'' : Fin 1024 => (∑ i : Fin 1024, x (ix2 r i) * wk (ix2 i h'')) + bk (ix1 h'')) h' := fun h' => by
    rw [pay8_apply, hnum h']
    unfold Spec.smx
    exact congrArg (Ideal.div _) (Finset.sum_congr rfl fun h'' _ => hnum h'')
  rw [pay6_apply, pay5_apply, pay4_apply]
  simp only [hsmx]

end Cert.KPay0

end
-- ==== Proof.HostReads.lean ====
/-
  The kernel program's host operations, read at an index at the extended reals: the weight matrix's row blocks
  sliced and transposed, the bias vector's pieces, the one learning-rate row padded with zero rows, and, between the
  two kernels, the fast weights plus the update, transposed.
-/
import proofs.«165204_j34668976013857_1_alg».proof.Proof.Gen.KernelIdeal.Launch
import proofs.«165204_j34668976013857_1_alg».proof.Proof.Gen.KernelIdeal.Regions
import proofs.«165204_j34668976013857_1_alg».proof.Proof.LibPlainDot
import Idealize.ShloMosaic.Lib.StableHlo.Run
import Idealize.ShloMosaic.Lib.Pipeline.Value
import Idealize.ShloMosaic.Lib.ValueLayout

noncomputable section

namespace Cert.HostReads

open Idealize.ShloMosaic Idealize.ShloMosaic.ValueIdx Idealize.ShloMosaic.TcCoe Idealize.SL.Sem
open Cert.KernelIdeal Cert.KernelIdeal.Gen

/-! ## Slices read at an index -/

/-- A unit-stride slice of a matrix at (p, q) is the matrix at the offsets plus (p, q). -/
theorem slice2_apply {α : Type} {A B A' B' : Nat} (o0 o1 : Nat) (x : (⟨2, ![A, B]⟩ : Shape).Idx → α)
    (h : (⟨2, ![A, B]⟩ : Shape).Slices ![o0, o1] ⟨2, ![A', B']⟩) (p : Fin A') (q : Fin B') (p' : Fin A) (q' : Fin B)
    (hp : p'.val = o0 + p.val) (hq : q'.val = o1 + q.val) :
    extractStridedSlice ⟨2, ![A', B']⟩ ![o0, o1] x h (ix2 p q) = x (ix2 p' q') :=
  extractStridedSlice_apply ![o0, o1] x h (ix2 p q) (ix2 p' q') fun a => by
    match a with
    | ⟨0, _⟩ => exact hp
    | ⟨1, _⟩ => exact hq

/-- A unit-stride slice of a vector at p is the vector at the offset plus p. -/
theorem slice1_apply {α : Type} {A A' : Nat} (o0 : Nat) (x : (⟨1, ![A]⟩ : Shape).Idx → α)
    (h : (⟨1, ![A]⟩ : Shape).Slices ![o0] ⟨1, ![A']⟩) (p : Fin A') (p' : Fin A) (hp : p'.val = o0 + p.val) :
    extractStridedSlice ⟨1, ![A']⟩ ![o0] x h (ix1 p) = x (ix1 p') :=
  extractStridedSlice_apply ![o0] x h (ix1 p) (ix1 p') fun a => by
    match a with
    | ⟨0, _⟩ => exact hp

variable (W : Valuation τ sig (Elt Ideal))
/-- Keys' weights as the first kernel sees them: entry (i, h) is weight row h at column i. -/
theorem v13_apply (i h : Fin 1024) :
    (StableHlo.after hostOps0 W (Proc.devRef .tc main_v13) : S1024x1024.Idx → EReal) (ix2 i h)
      = (W (Proc.devRef .tc main_arg1) : S3073x1024.Idx → EReal) (ix2 (⟨h.val, by omega⟩ : Fin 3073) i) := by
  have e : (StableHlo.after hostOps0 W (Proc.devRef .tc main_v13) : S1024x1024.Idx → EReal)
      = truncf (F := Ideal) .bf16 (transpose S1024x1024 [1, 0]
          (extractStridedSlice S1024x1024 ![0, 0] (W (Proc.devRef .tc main_arg1) : S3073x1024.Idx → EReal) slices_S3073x1024_S1024x1024_0_0)
          transposes_S1024x1024_S1024x1024_1_0) bitsLt_bf16_f32 := by
    dsimp only [hostOps0]
    after_results
  rw [e]
  rw [truncf_apply]
  rw [Cert.LibPlainDot.transpose2_apply]
  exact slice2_apply 0 0 _ _ h i _ i (by simp) (by simp)
/-- Values' weights: entry (i, o) is weight row 1024 + o at column i. -/
theorem v15_apply (i o : Fin 1024) :
    (StableHlo.after hostOps0 W (Proc.devRef .tc main_v15) : S1024x1024.Idx → EReal) (ix2 i o)
      = (W (Proc.devRef .tc main_arg1) : S3073x1024.Idx → EReal) (ix2 (⟨1024 + o.val, by omega⟩ : Fin 3073) i) := by
  have e : (StableHlo.after hostOps0 W (Proc.devRef .tc main_v15) : S1024x1024.Idx → EReal)
      = truncf (F := Ideal) .bf16 (transpose S1024x1024 [1, 0]
          (extractStridedSlice S1024x1024 ![1024, 0] (W (Proc.devRef .tc main_arg1) : S3073x1024.Idx → EReal) slices_S3073x1024_S1024x1024_1024_0)
          transposes_S1024x1024_S1024x1024_1_0) bitsLt_bf16_f32 := by
    dsimp only [hostOps0]
    after_results
  rw [e]
  rw [truncf_apply]
  rw [Cert.LibPlainDot.transpose2_apply]
  exact slice2_apply 1024 0 _ _ o i _ i (by simp) (by simp)
/-- Queries' weights: entry (i, h) is weight row 2048 + h at column i. -/
theorem v17_apply (i h : Fin 1024) :
    (StableHlo.after hostOps0 W (Proc.devRef .tc main_v17) : S1024x1024.Idx → EReal) (ix2 i h)
      = (W (Proc.devRef .tc main_arg1) : S3073x1024.Idx → EReal) (ix2 (⟨2048 + h.val, by omega⟩ : Fin 3073) i) := by
  have e : (StableHlo.after hostOps0 W (Proc.devRef .tc main_v17) : S1024x1024.Idx → EReal)
      = truncf (F := Ideal) .bf16 (transpose S1024x1024 [1, 0]
          (extractStridedSlice S1024x1024 ![2048, 0] (W (Proc.devRef .tc main_arg1) : S3073x1024.Idx → EReal) slices_S3073x1024_S1024x1024_2048_0)
          transposes_S1024x1024_S1024x1024_1_0) bitsLt_bf16_f32 := by
    dsimp only [hostOps0]
    after_results
  rw [e]
  rw [truncf_apply]
  rw [Cert.LibPlainDot.transpose2_apply]
  exact slice2_apply 2048 0 _ _ h i _ i (by simp) (by simp)
/-- The learning-rate row, padded to 128 columns: column 0 at row i is weight row 3072 at column i. -/
theorem v19_apply_zero (i : Fin 1024) :
    (StableHlo.after hostOps0 W (Proc.devRef .tc main_v19) : S1024x128.Idx → EReal) (ix2 i (0 : Fin 128))
      = (W (Proc.devRef .tc main_arg1) : S3073x1024.Idx → EReal) (ix2 (⟨3072, by omega⟩ : Fin 3073) i) := by
  have e : (StableHlo.after hostOps0 W (Proc.devRef .tc main_v19) : S1024x128.Idx → EReal)
      = truncf (F := Ideal) .bf16 (transpose S1024x128 [1, 0]
          (concatenate S128x1024 0
            [⟨S1x1024, extractStridedSlice S1x1024 ![3072, 0] (W (Proc.devRef .tc main_arg1) : S3073x1024.Idx → EReal) slices_S3073x1024_S1x1024_3072_0⟩,
             ⟨S127x1024, broadcastInDim S127x1024 ![] bcast_S_S127x1024 (constant (F := Ideal) S_ .f32 0x00000000#32)⟩]
            concatenates_S1x1024_S127x1024_S128x1024_d0)
          transposes_S128x1024_S1024x128_1_0) bitsLt_bf16_f32 := by
    dsimp only [hostOps0]
    after_results
  rw [e]
  rw [truncf_apply]
  rw [Cert.LibPlainDot.transpose2_apply]
  rw [concatenate_pair_apply_left (0 : Fin S128x1024.rank) _ _ concatenates_S1x1024_S127x1024_S128x1024_d0
    (ix2 (0 : Fin 128) i) rfl (ix2 (0 : Fin 1) i) (fun b => by
      match b with
      | ⟨0, _⟩ => rfl
      | ⟨1, _⟩ => rfl)]
  exact slice2_apply 3072 0 _ _ (0 : Fin 1) i _ i (by simp) (by simp)
/-- The bias pieces. -/
theorem v4_apply (h : Fin 1024) :
    (StableHlo.after hostOps0 W (Proc.devRef .tc main_v4) : S1024.Idx → EReal) (ix1 h)
      = (W (Proc.devRef .tc main_arg2) : S3073.Idx → EReal) (ix1 (⟨h.val, by omega⟩ : Fin 3073)) := by
  have e : (StableHlo.after hostOps0 W (Proc.devRef .tc main_v4) : S1024.Idx → EReal)
      = extractStridedSlice S1024 ![0] (W (Proc.devRef .tc main_arg2) : S3073.Idx → EReal) slices_S3073_S1024_0 := by
    dsimp only [hostOps0]
    after_results
  rw [e]
  exact slice1_apply 0 _ _ h _ (by simp)

theorem v5_apply (o : Fin 1024) :
    (StableHlo.after hostOps0 W (Proc.devRef .tc main_v5) : S1024.Idx → EReal) (ix1 o)
      = (W (Proc.devRef .tc main_arg2) : S3073.Idx → EReal) (ix1 (⟨1024 + o.val, by omega⟩ : Fin 3073)) := by
  have e : (StableHlo.after hostOps0 W (Proc.devRef .tc main_v5) : S1024.Idx → EReal)
      = extractStridedSlice S1024 ![1024] (W (Proc.devRef .tc main_arg2) : S3073.Idx → EReal) slices_S3073_S1024_1024 := by
    dsimp only [hostOps0]
    after_results
  rw [e]
  exact slice1_apply 1024 _ _ o _ (by simp)

theorem v6_apply (h : Fin 1024) :
    (StableHlo.after hostOps0 W (Proc.devRef .tc main_v6) : S1024.Idx → EReal) (ix1 h)
      = (W (Proc.devRef .tc main_arg2) : S3073.Idx → EReal) (ix1 (⟨2048 + h.val, by omega⟩ : Fin 3073)) := by
  have e : (StableHlo.after hostOps0 W (Proc.devRef .tc main_v6) : S1024.Idx → EReal)
      = extractStridedSlice S1024 ![2048] (W (Proc.devRef .tc main_arg2) : S3073.Idx → EReal) slices_S3073_S1024_2048 := by
    dsimp only [hostOps0]
    after_results
  rw [e]
  exact slice1_apply 2048 _ _ h _ (by simp)

theorem v11_apply_zero :
    (StableHlo.after hostOps0 W (Proc.devRef .tc main_v11) : S128.Idx → EReal) (ix1 (0 : Fin 128))
      = (W (Proc.devRef .tc main_arg2) : S3073.Idx → EReal) (ix1 (⟨3072, by omega⟩ : Fin 3073)) := by
  have e : (StableHlo.after hostOps0 W (Proc.devRef .tc main_v11) : S128.Idx → EReal)
      = concatenate S128 0
          [⟨S1, extractStridedSlice S1 ![3072] (W (Proc.devRef .tc main_arg2) : S3073.Idx → EReal) slices_S3073_S1_3072⟩,
           ⟨S127, broadcastInDim S127 ![] bcast_S_S127 (constant (F := Ideal) S_ .f32 0x00000000#32)⟩]
          concatenates_S1_S127_S128_d0 := by
    dsimp only [hostOps0]
    after_results
  rw [e]
  rw [concatenate_pair_apply_left (0 : Fin S128.rank) _ _ concatenates_S1_S127_S128_d0
    (ix1 (0 : Fin 128)) rfl (ix1 (0 : Fin 1)) (fun b => by
      match b with
      | ⟨0, _⟩ => rfl)]
  exact slice1_apply 3072 _ _ (0 : Fin 1) _ (by simp)
/-- The fast weights transposed: entry (h, o) is Wf(o, h). -/
theorem v21_apply (h o : Fin 1024) :
    (StableHlo.after hostOps0 W (Proc.devRef .tc main_v21) : S1024x1024.Idx → EReal) (ix2 h o)
      = (W (Proc.devRef .tc main_arg3) : S1024x1024.Idx → EReal) (ix2 o h) := by
  have e : (StableHlo.after hostOps0 W (Proc.devRef .tc main_v21) : S1024x1024.Idx → EReal)
      = truncf (F := Ideal) .bf16 (transpose S1024x1024 [1, 0] (W (Proc.devRef .tc main_arg3) : S1024x1024.Idx → EReal)
          transposes_S1024x1024_S1024x1024_1_0) bitsLt_bf16_f32 := by
    dsimp only [hostOps0]
    after_results
  rw [e]
  rw [truncf_apply]
  rw [Cert.LibPlainDot.transpose2_apply]
/-- The first host stretch writes none of the arguments. -/
theorem arg_kept0 (b : Ref sig .tc) (hb : b = main_arg0 ∨ b = main_arg1 ∨ b = main_arg2 ∨ b = main_arg3 ∨ b = main_arg4) :
    StableHlo.after hostOps0 W (Proc.devRef .tc b) = W (Proc.devRef .tc b) := by
  rcases hb with rfl | rfl | rfl | rfl | rfl <;>
    exact StableHlo.after_of_writes_sub hostOps0 W hostOps0_writes (by decide)

/-- Between the kernels: the updated fast weights transposed: entry (h, o) is Wf(o, h) + delta(o, h). -/
theorem v25_apply (a3 d : S1024x1024.Idx → EReal) (h3 : W (Proc.devRef .tc main_arg3) = a3) (hd : W (Proc.devRef .tc main_v22) = d)
    (h o : Fin 1024) :
    (StableHlo.after hostOps1 W (Proc.devRef .tc main_v25) : S1024x1024.Idx → EReal) (ix2 h o) = a3 (ix2 o h) + d (ix2 o h) := by
  subst h3 hd
  have e : (StableHlo.after hostOps1 W (Proc.devRef .tc main_v25) : S1024x1024.Idx → EReal)
      = truncf (F := Ideal) .bf16 (transpose S1024x1024 [1, 0]
          (addf (F := Ideal) (W (Proc.devRef .tc main_arg3) : S1024x1024.Idx → EReal) (W (Proc.devRef .tc main_v22) : S1024x1024.Idx → EReal))
          transposes_S1024x1024_S1024x1024_1_0) bitsLt_bf16_f32 := by
    dsimp only [hostOps1]
    after_results
  rw [e]
  rw [truncf_apply]
  rw [Cert.LibPlainDot.transpose2_apply, addf_apply]
/-- The second host stretch writes only its own three results. -/
theorem kept1 (b : Ref sig .tc) (hb : b ≠ main_v23 ∧ b ≠ main_v24 ∧ b ≠ main_v25) :
    StableHlo.after hostOps1 W (Proc.devRef .tc b) = W (Proc.devRef .tc b) :=
  StableHlo.after_of_writes_sub hostOps1 W hostOps1_writes (by
    intro hmem
    simp only [hostOps1_W, List.mem_cons, List.not_mem_nil, or_false] at hmem
    rcases hmem with h | h | h
    · exact hb.1 h
    · exact hb.2.1 h
    · exact hb.2.2 h)

end Cert.HostReads

end
-- ==== Proof.KV0.lean ====
/-
  The first kernel's result at the extended reals: entry (o, h) of its output is the specification's update
  delta(o, h) of the five arguments.

  The accumulator after tile n is the specification's accK at n + 1 (induction on the tile: one step adds the tile's
  share, read entry by entry; the tile's rows are rows 256·t + r of the batch, the resident operands the host's slices
  and transposes of the weight matrix and the bias). After the last tile this is the reference's update (Spec.accK_all).
-/
import proofs.«165204_j34668976013857_1_alg».proof.Proof.KI.R0
import proofs.«165204_j34668976013857_1_alg».proof.Proof.KBlocks
import proofs.«165204_j34668976013857_1_alg».proof.Proof.KPay0
import proofs.«165204_j34668976013857_1_alg».proof.Proof.HostReads
import proofs.«165204_j34668976013857_1_alg».proof.Proof.Spec

set_option maxRecDepth 16384

noncomputable section

namespace Cert.KV0

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- each core's buffers before the first host stretch
variable (W : Dev nD → Valuation τ sig (Elt Ideal))

/-- The buffers as the first kernel's region finds them: after the first host stretch. -/
abbrev V1 : (c : Dev nD) → (b : Ref sig .tc) → Buf (Elt Ideal) ((c : Thread nD τ).loc b) :=
  fun c b => StableHlo.after hostOps0 (W c) (Proc.devRef .tc b)

/-- The five arguments as functions of their coordinates. -/
def xA (c : Dev nD) : Fin 16384 → Fin 1024 → EReal := fun b k => (W c (Proc.devRef .tc main_arg0) : S16384x1024.Idx → EReal) (ix2 b k)
def wsA (c : Dev nD) : Fin 3073 → Fin 1024 → EReal := fun j k => (W c (Proc.devRef .tc main_arg1) : S3073x1024.Idx → EReal) (ix2 j k)
def bsA (c : Dev nD) : Fin 3073 → EReal := fun j => (W c (Proc.devRef .tc main_arg2) : S3073.Idx → EReal) (ix1 j)
def wfA (c : Dev nD) : Fin 1024 → Fin 1024 → EReal := fun o h => (W c (Proc.devRef .tc main_arg3) : S1024x1024.Idx → EReal) (ix2 o h)
def bfA (c : Dev nD) : Fin 1024 → EReal := fun o => (W c (Proc.devRef .tc main_arg4) : S1024.Idx → EReal) (ix1 o)

/-- One tile's step over any blocks that read as the arguments do: the accumulator's entry gains the tile's share. -/
theorem step_share (x : Vec Ideal S256x1024 .f32) (wk wv : Vec Ideal S1024x1024 .bf16) (wlr : Vec Ideal S1024x128 .bf16)
    (bk bv : Vec Ideal S1024 .f32) (blr : Vec Ideal S128 .f32) (wf : Vec Ideal S1024x1024 .bf16) (bf : Vec Ideal S1024 .f32)
    (a : Vec Ideal S1024x1024 .f32)
    (X : Fin 16384 → Fin 1024 → EReal) (Ws : Fin 3073 → Fin 1024 → EReal) (bs : Fin 3073 → EReal)
    (Wf : Fin 1024 → Fin 1024 → EReal) (bfn : Fin 1024 → EReal) (t : Fin 64)
    (hx : ∀ (r : Fin 256) (i : Fin 1024), x (ix2 r i) = X (Spec.rowOf t r) i)
    (hwk : ∀ i h : Fin 1024, wk (ix2 i h) = Ws ⟨h.val, by omega⟩ i)
    (hwv : ∀ i o : Fin 1024, wv (ix2 i o) = Ws ⟨1024 + o.val, by omega⟩ i)
    (hwlr : ∀ i : Fin 1024, wlr (ix2 i (0 : Fin 128)) = Ws ⟨3072, by omega⟩ i)
    (hbk : ∀ h : Fin 1024, bk (ix1 h) = bs ⟨h.val, by omega⟩)
    (hbv : ∀ o : Fin 1024, bv (ix1 o) = bs ⟨1024 + o.val, by omega⟩)
    (hblr : blr (ix1 (0 : Fin 128)) = bs ⟨3072, by omega⟩)
    (hwf : ∀ h o : Fin 1024, wf (ix2 h o) = Wf o h)
    (hbf : ∀ o : Fin 1024, bf (ix1 o) = bfn o)
    (o h : Fin 1024) (A : EReal) (ha : a (ix2 o h) = A) :
    step0 (F := Ideal) x wk wv wlr bk bv blr wf bf a (ix2 o h) = A + Spec.partialK X Ws bs Wf bfn t o h := by
  rw [Cert.KPay0.step0_apply, ha]
  refine congrArg (A + ·) (Finset.sum_congr rfl fun r _ => ?_)
  simp only [hx, hwk, hwv, hwlr, hbk, hbv, hblr, hwf, hbf]
  rfl

/-- At a point of the first kernel the blocks read as the five arguments do, so the step adds the tile's share. -/
theorem step_blocks (c : Dev nD) (t : Fin cfg0.N) (a : Vec Ideal S1024x1024 .f32) (o h : Fin 1024) (A : EReal)
    (ha : a (ix2 o h) = A) :
    (step0 (F := Ideal) (iblk0 (V1 W) c 0 t) (iblk0 (V1 W) c 1 t) (iblk0 (V1 W) c 2 t) (iblk0 (V1 W) c 3 t) (iblk0 (V1 W) c 4 t)
        (iblk0 (V1 W) c 5 t) (iblk0 (V1 W) c 6 t) (iblk0 (V1 W) c 7 t) (iblk0 (V1 W) c 8 t) a : S1024x1024.Idx → EReal) (ix2 o h)
      = A + Spec.partialK (xA W c) (wsA W c) (bsA W c) (wfA W c) (bfA W c)
          ⟨t.val, by have := t.isLt; have e : cfg0.N = 64 := N_0; omega⟩ o h := by
  have hx : ∀ (r : Fin 256) (i : Fin 1024), (iblk0 (V1 W) c 0 t : S256x1024.Idx → EReal) (ix2 r i)
      = xA W c (Spec.rowOf ⟨t.val, by have := t.isLt; have e : cfg0.N = 64 := N_0; omega⟩ r) i := fun r i =>
    (Cert.KBlocks.iblk0_x (V1 W) c t r i).trans
      (congrFun (Cert.HostReads.arg_kept0 (W c) main_arg0 (Or.inl rfl)) _)
  have hwk : ∀ i h : Fin 1024, (iblk0 (V1 W) c 1 t : S1024x1024.Idx → EReal) (ix2 i h) = wsA W c ⟨h.val, by omega⟩ i := fun i h =>
    (congrFun (Cert.KBlocks.iblk0_wk (V1 W) c t) (ix2 i h)).trans (Cert.HostReads.v13_apply (W c) i h)
  have hwv : ∀ i o : Fin 1024, (iblk0 (V1 W) c 2 t : S1024x1024.Idx → EReal) (ix2 i o) = wsA W c ⟨1024 + o.val, by omega⟩ i := fun i o =>
    (congrFun (Cert.KBlocks.iblk0_wv (V1 W) c t) (ix2 i o)).trans (Cert.HostReads.v15_apply (W c) i o)
  have hwlr : ∀ i : Fin 1024, (iblk0 (V1 W) c 3 t : S1024x128.Idx → EReal) (ix2 i (0 : Fin 128)) = wsA W c ⟨3072, by omega⟩ i := fun i =>
    (congrFun (Cert.KBlocks.iblk0_wlr (V1 W) c t) (ix2 i (0 : Fin 128))).trans (Cert.HostReads.v19_apply_zero (W c) i)
  have hbk : ∀ h : Fin 1024, (iblk0 (V1 W) c 4 t : S1024.Idx → EReal) (ix1 h) = bsA W c ⟨h.val, by omega⟩ := fun h =>
    (congrFun (Cert.KBlocks.iblk0_bk (V1 W) c t) (ix1 h)).trans (Cert.HostReads.v4_apply (W c) h)
  have hbv : ∀ o : Fin 1024, (iblk0 (V1 W) c 5 t : S1024.Idx → EReal) (ix1 o) = bsA W c ⟨1024 + o.val, by omega⟩ := fun o =>
    (congrFun (Cert.KBlocks.iblk0_bv (V1 W) c t) (ix1 o)).trans (Cert.HostReads.v5_apply (W c) o)
  have hblr : (iblk0 (V1 W) c 6 t : S128.Idx → EReal) (ix1 (0 : Fin 128)) = bsA W c ⟨3072, by omega⟩ :=
    (congrFun (Cert.KBlocks.iblk0_blr (V1 W) c t) (ix1 (0 : Fin 128))).trans (Cert.HostReads.v11_apply_zero (W c))
  have hwf : ∀ h o : Fin 1024, (iblk0 (V1 W) c 7 t : S1024x1024.Idx → EReal) (ix2 h o) = wfA W c o h := fun h o =>
    (congrFun (Cert.KBlocks.iblk0_wf (V1 W) c t) (ix2 h o)).trans (Cert.HostReads.v21_apply (W c) h o)
  have hbf : ∀ o : Fin 1024, (iblk0 (V1 W) c 8 t : S1024.Idx → EReal) (ix1 o) = bfA W c o := fun o =>
    (congrFun (Cert.KBlocks.iblk0_bf (V1 W) c t) (ix1 o)).trans
      (congrFun (Cert.HostReads.arg_kept0 (W c) main_arg4 (Or.inr (Or.inr (Or.inr (Or.inr rfl))))) _)
  exact step_share (iblk0 (V1 W) c 0 t) (iblk0 (V1 W) c 1 t) (iblk0 (V1 W) c 2 t) (iblk0 (V1 W) c 3 t) (iblk0 (V1 W) c 4 t)
    (iblk0 (V1 W) c 5 t) (iblk0 (V1 W) c 6 t) (iblk0 (V1 W) c 7 t) (iblk0 (V1 W) c 8 t) a
    (xA W c) (wsA W c) (bsA W c) (wfA W c) (bfA W c) ⟨t.val, by have := t.isLt; have e : cfg0.N = 64 := N_0; omega⟩
    hx hwk hwv hwlr hbk hbv hblr hwf hbf o h A ha

/-- The accumulator after tile n is the specification's. -/
theorem acc_eq (c : Dev nD) (n : ℕ) (hn : n < cfg0.N) (o h : Fin 1024) :
    (accAt (V1 W) c n hn : S1024x1024.Idx → EReal) (ix2 o h)
      = Spec.accK (xA W c) (wsA W c) (bsA W c) (wfA W c) (bfA W c) (n + 1) (by have e : cfg0.N = 64 := N_0; omega) o h := by
  induction n with
  | zero =>
    refine (step_blocks W c ⟨0, hn⟩ (zero0 (F := Ideal)) o h 0 (Cert.KPay0.zero0_apply o h)).trans ?_
    rfl
  | succ n ih =>
    refine (step_blocks W c ⟨n + 1, hn⟩ (accAt (V1 W) c n (Nat.lt_of_succ_lt hn)) o h _ (ih (Nat.lt_of_succ_lt hn))).trans ?_
    rfl

/-- The first kernel's output array after the region is the reference's update. -/
theorem delta_eq (c : Dev nD) (o h : Fin 1024) :
    ((dat0 (V1 W) c).arrAt 9 cfg0.N : S1024x1024.Idx → EReal) (ix2 o h)
      = Spec.deltaRef (xA W c) (wsA W c) (bsA W c) (wfA W c) (bfA W c) o h := by
  refine (congrFun (Cert.KBlocks.out0_final (V1 W) c) (ix2 o h)).trans ?_
  refine (acc_eq W c 63 (by rw [show cfg0.N = 64 from N_0]; omega) o h).trans ?_
  exact Spec.accK_all (xA W c) (wsA W c) (bsA W c) (wfA W c) (bfA W c) o h

end Cert.KV0

end
-- ==== Proof.KPay1.lean ====
/-
  One point of the second kernel, read at an entry of its output tile, at the extended reals: the softmax of the
  tile row's queries against the updated fast weights, plus the bias.

  The pieces, each read at one entry and stated for any number of rows: a sum along a row and the largest entry of a
  row are a sum and a fold of max over the row's entries; a vector laid along the rows as a one-column matrix reads the
  vector at the row; the softmax of a row is exp(entry − row max) over the sum of those exponentials; a dense layer is
  the row against the weight column, plus the bias.
-/
import proofs.«165204_j34668976013857_1_alg».proof.Proof.KI.Step
import proofs.«165204_j34668976013857_1_alg».proof.Proof.Spec
import proofs.«165204_j34668976013857_1_alg».proof.Proof.LibPlainDot
import Idealize.ShloMosaic.Lib.Pipeline.Value
import Idealize.ShloMosaic.Lib.ValueLayout

noncomputable section

namespace Cert.KPay1

open Idealize.ShloMosaic Idealize.ShloMosaic.ValueIdx Cert.KernelIdeal Cert.KernelIdeal.Gen Cert.KernelIdeal.Hand

variable {R C : Nat}

/-- The index a reduction over the columns reads at row p and column k is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- The sum along a row. -/
theorem rowSum_apply (v : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (p : Fin R) :
    multiReduction (F := Ideal) .add [1] ⟨1, ![R]⟩ v 0x00000000#32 h hφ hacc (ix1 p) = ∑ k : Fin C, v (ix2 p k) := by
  refine (Ideal.multiReduction_add_single v _ h hφ hacc (ix1 p)).trans ?_
  exact Finset.sum_congr rfl fun k _ => congrArg v (lift_row h p k)

/-- The largest entry of a row, folded from the accumulator's word. -/
theorem rowMax_apply (v : FVec Ideal ⟨2, ![R, C]⟩ .f32) (h : (⟨2, ![R, C]⟩ : Shape).Reduces [1] ⟨1, ![R]⟩)
    (hφ : FKind.Formats .f32) (hacc : (0xFF800000#32 : BitVec 32) = FKind.maximumf.neutral .f32 hφ) (p : Fin R) :
    multiReduction (F := Ideal) .maximumf [1] ⟨1, ![R]⟩ v 0xFF800000#32 h hφ hacc (ix1 p)
      = (Finset.univ : Finset (Fin C)).fold max (Ideal.ofBits .f32 0xFF800000#32) (fun k => v (ix2 p k)) := by
  refine (Ideal.multiReduction_maximumf_single v _ h hφ hacc (ix1 p)).trans ?_
  exact congrArg ((Finset.univ : Finset (Fin C)).fold max (Ideal.ofBits .f32 0xFF800000#32))
    (funext fun k => congrArg v (lift_row h p k))

/-- A vector recast as a one-column matrix and broadcast along the rows reads, at (p, q), the vector at p. -/
theorem colBroadcastTo_apply {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (p : Fin R) (q : Fin C) :
    broadcastTo ⟨2, ![R, C]⟩ (shapeCast ⟨2, ![R, 1]⟩ v h1) h2 (ix2 p q) = v (ix1 p) := by
  rw [broadcastTo_apply (shapeCast ⟨2, ![R, 1]⟩ v h1) h2 (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])]
  exact shapeCast_apply v h1 (ix2 p (0 : Fin 1)) (ix1 p) (by
    rw [Shape.rowMajor_val_one, Shape.rowMajor_val_two]
    show p.val = p.val * 1 + (0 : Nat)
    omega)

/-- The row maximum, compared once more with -∞ and laid along the row. -/
theorem rowMaxCol_apply (v : FVec Ideal ⟨2, ![R, 1024]⟩ .f32) (h : (⟨2, ![R, 1024]⟩ : Shape).Reduces [1] ⟨1, ![R]⟩)
    (hφ : FKind.Formats .f32) (hacc : (0xFF800000#32 : BitVec 32) = FKind.maximumf.neutral .f32 hφ)
    (h1 : (⟨1, ![R]⟩ : Shape).ShapeCasts ⟨2, ![R, 1]⟩) (h2 : (⟨2, ![R, 1]⟩ : Shape).Broadcasts ⟨2, ![R, 1024]⟩)
    (p : Fin R) (q : Fin 1024) :
    broadcastTo ⟨2, ![R, 1024]⟩ (shapeCast ⟨2, ![R, 1]⟩
        (maximumf (broadcast ⟨1, ![R]⟩ (Scalar.ofBits (F := Ideal) .f32 0xFF800000#32))
          (multiReduction (F := Ideal) .maximumf [1] ⟨1, ![R]⟩ v 0xFF800000#32 h hφ hacc)) h1) h2 (ix2 p q)
      = Spec.rowMax (fun k => v (ix2 p k)) := by
  rw [colBroadcastTo_apply, maximumf_apply, rowMax_apply]
  rfl

/-- The softmax of a row at an entry, given that m is the row maximum along the row. -/
theorem softmax_apply (v m : FVec Ideal ⟨2, ![R, 1024]⟩ .f32) (p : Fin R)
    (hm : ∀ k : Fin 1024, m (ix2 p k) = Spec.rowMax (fun k => v (ix2 p k)))
    (h : (⟨2, ![R, 1024]⟩ : Shape).Reduces [1] ⟨1, ![R]⟩)
    (hφ : FKind.Formats .f32) (hacc : (0x00000000#32 : BitVec 32) = FKind.add.neutral .f32 hφ)
    (h1 : (⟨1, ![R]⟩ : Shape).ShapeCasts ⟨2, ![R, 1]⟩) (h2 : (⟨2, ![R, 1]⟩ : Shape).Broadcasts ⟨2, ![R, 1024]⟩)
    (q : Fin 1024) :
    divf (exp (subf v m))
        (broadcastTo ⟨2, ![R, 1024]⟩ (shapeCast ⟨2, ![R, 1]⟩
          (multiReduction (F := Ideal) .add [1] ⟨1, ![R]⟩ (exp (subf v m)) 0x00000000#32 h hφ hacc) h1) h2) (ix2 p q)
      = Spec.smx (fun k => v (ix2 p k)) q := by
  rw [divf_apply, colBroadcastTo_apply, rowSum_apply]
  show Ideal.div (Ideal.exp (v (ix2 p q) - m (ix2 p q))) (∑ k : Fin 1024, Ideal.exp (v (ix2 p k) - m (ix2 p k))) = _
  simp only [hm]
  rfl

/-- A dense layer at an entry: the row against the weight column, plus the bias. -/
theorem dense_apply {K N : Nat} {φ₁ φ₂ : FTy} (prec : Option ContractPrecision) (x : FVec Ideal ⟨2, ![R, K]⟩ φ₁) (w : FVec Ideal ⟨2, ![K, N]⟩ φ₂)
    (b : (⟨1, ![N]⟩ : Shape).Idx → EReal)
    (h1 : (⟨1, ![N]⟩ : Shape).ShapeCasts ⟨2, ![1, N]⟩) (h2 : (⟨2, ![1, N]⟩ : Shape).Broadcasts ⟨2, ![R, N]⟩)
    (p : Fin R) (q : Fin N) :
    addf (F := Ideal) (φ := .f32) (FloatOps.matmul (DotDims.plain R K N) prec x w (constant ⟨2, ![R, N]⟩ .f32 0x00000000#32))
        (broadcastTo ⟨2, ![R, N]⟩ (shapeCast ⟨2, ![1, N]⟩ b h1) h2) (ix2 p q)
      = (∑ i : Fin K, x (ix2 p i) * w (ix2 i q)) + b (ix1 q) := by
  rw [addf_apply, LibPlainDot.rowBroadcastTo_apply, LibPlainDot.matmul_plain_zero]
  rfl

/-- Entry (r, o) of the second kernel's output tile: with q_r(h') = Σ_i x(r, i) · wq(i, h') + bq(h') the tile row's
    queries, it is Σ_h softmax(q_r)(h) · wn(h, o) + bf(o). -/
theorem step1_apply (x : Vec Ideal S512x1024 .f32) (wq : Vec Ideal S1024x1024 .bf16) (bq : Vec Ideal S1024 .f32)
    (wn : Vec Ideal S1024x1024 .bf16) (bf : Vec Ideal S1024 .f32) (r : Fin 512) (o : Fin 1024) :
    step1 (F := Ideal) x wq bq wn bf (ix2 r o)
      = (∑ h : Fin 1024, Spec.smx (fun h' : Fin 1024 => (∑ i : Fin 1024, x (ix2 r i) * wq (ix2 i h')) + bq (ix1 h')) h * wn (ix2 h o))
          + bf (ix1 o) := by
  unfold step1 k1_pay1
  dsimp only
  simp only [shapeCast_self]
  refine (dense_apply (R := 512) (K := 1024) (N := 1024) (φ₁ := .bf16) (φ₂ := .bf16) none _ wn bf _ _ r o).trans ?_
  refine congrArg (· + bf (ix1 o)) (Finset.sum_congr rfl fun h _ => congrArg (· * wn (ix2 h o)) ?_)
  rw [truncf_apply]
  refine (softmax_apply _ _ r (fun k => rowMaxCol_apply _ _ _ _ _ _ r k) _ _ _ _ _ h).trans ?_
  refine congrArg (fun f => Spec.smx f h) (funext fun k => ?_)
  exact dense_apply (R := 512) (K := 1024) (N := 1024) (φ₁ := .bf16) (φ₂ := .bf16) none _ wq bq _ _ r k

end Cert.KPay1

end
-- ==== Proof.KV1.lean ====
/-
  The kernel program's result at the extended reals is the specification's function of the five arguments.

  Tile t of the second kernel's output, read entry by entry, is rows 512·t … 512·t + 511 of the specification's result:
  its queries come from the host's slice of the weight matrix and the bias, its fast weights are the host's sum of the
  argument and the first kernel's update, transposed. The 32 tiles cover the result.
-/
import proofs.«165204_j34668976013857_1_alg».proof.Proof.KI.Run
import proofs.«165204_j34668976013857_1_alg».proof.Proof.KV0
import proofs.«165204_j34668976013857_1_alg».proof.Proof.KPay1
import proofs.«165204_j34668976013857_1_alg».proof.Proof.KBlocks
import proofs.«165204_j34668976013857_1_alg».proof.Proof.HostReads
import proofs.«165204_j34668976013857_1_alg».proof.Proof.Spec

set_option maxRecDepth 16384

noncomputable section

namespace Cert.KV1

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-! ## The second kernel's operands, read back to the arguments -/

/-- The batch of rows reaches the second kernel as launched: both host stretches leave it, the first kernel only reads it. -/
theorem V3_arg0 (c : Dev nD) :
    (V3 m ρ c main_arg0 : S16384x1024.Idx → EReal) = m ((c.tc : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- So does the fast bias. -/
theorem V3_arg4 (c : Dev nD) :
    (V3 m ρ c main_arg4 : S1024.Idx → EReal) = m ((c.tc : Thread nD τ).loc main_arg4) :=
  calc W3 m ρ c (Proc.devRef .tc main_arg4)
    _ = W2 m ρ c (Proc.devRef .tc main_arg4) := W3_of m ρ c main_arg4 (by decide)
    _ = W1 m ρ c (Proc.devRef .tc main_arg4) := (W2_arr m ρ c 8).trans (((dat0 (V1 m ρ) c).arrAt_in 8 rfl _).trans (A_eq0 (V1 m ρ) c 8))
    _ = W0 m ρ c (Proc.devRef .tc main_arg4) := W1_of m ρ c main_arg4 (by decide)
    _ = m ((c : Thread nD τ).loc main_arg4) := rfl

/-- The queries' weights: entry (i, h) is weight row 2048 + h at column i. -/
theorem V3_v17 (c : Dev nD) (i h : Fin 1024) :
    (V3 m ρ c main_v17 : S1024x1024.Idx → EReal) (ix2 i h)
      = (m ((c.tc : Thread nD τ).loc main_arg1) : S3073x1024.Idx → EReal) (ix2 (⟨2048 + h.val, by omega⟩ : Fin 3073) i) := by
  have e : W3 m ρ c (Proc.devRef .tc main_v17) = W1 m ρ c (Proc.devRef .tc main_v17) :=
    (W3_of m ρ c main_v17 (by decide)).trans (W2_of_ne m ρ c main_v17 (by decide))
  show (W3 m ρ c (Proc.devRef .tc main_v17) : S1024x1024.Idx → EReal) (ix2 i h) = _
  rw [e]
  exact Cert.HostReads.v17_apply (W0 m ρ c) i h

/-- The queries' bias: entry h is bias entry 2048 + h. -/
theorem V3_v6 (c : Dev nD) (h : Fin 1024) :
    (V3 m ρ c main_v6 : S1024.Idx → EReal) (ix1 h)
      = (m ((c.tc : Thread nD τ).loc main_arg2) : S3073.Idx → EReal) (ix1 (⟨2048 + h.val, by omega⟩ : Fin 3073)) := by
  have e : W3 m ρ c (Proc.devRef .tc main_v6) = W1 m ρ c (Proc.devRef .tc main_v6) :=
    (W3_of m ρ c main_v6 (by decide)).trans (W2_of_ne m ρ c main_v6 (by decide))
  show (W3 m ρ c (Proc.devRef .tc main_v6) : S1024.Idx → EReal) (ix1 h) = _
  rw [e]
  exact Cert.HostReads.v6_apply (W0 m ρ c) h

/-- The updated fast weights, transposed: entry (h, o) is the specification's updated fast weights at (o, h),
    Wf(o, h) plus the update. -/
theorem V3_v25 (c : Dev nD) (h o : Fin 1024) :
    (V3 m ρ c main_v25 : S1024x1024.Idx → EReal) (ix2 h o)
      = Spec.Wn (fun b k => (m ((c.tc : Thread nD τ).loc main_arg0) : S16384x1024.Idx → EReal) (ix2 b k))
            (fun j k => (m ((c.tc : Thread nD τ).loc main_arg1) : S3073x1024.Idx → EReal) (ix2 j k))
            (fun j => (m ((c.tc : Thread nD τ).loc main_arg2) : S3073.Idx → EReal) (ix1 j))
            (fun o h => (m ((c.tc : Thread nD τ).loc main_arg3) : S1024x1024.Idx → EReal) (ix2 o h))
            (fun o => (m ((c.tc : Thread nD τ).loc main_arg4) : S1024.Idx → EReal) (ix1 o)) o h := by
  have h3 : W2 m ρ c (Proc.devRef .tc main_arg3) = m ((c.tc : Thread nD τ).loc main_arg3) :=
    (W2_of_ne m ρ c main_arg3 (by decide)).trans ((W1_of m ρ c main_arg3 (by decide)).trans rfl)
  have hd : W2 m ρ c (Proc.devRef .tc main_v22) = (dat0 (V1 m ρ) c).arrAt 9 cfg0.N := W2_arr m ρ c 9
  unfold Spec.Wn
  refine (Cert.HostReads.v25_apply (W2 m ρ c) _ _ h3 hd h o).trans ?_
  exact congrArg (HAdd.hAdd _) (Cert.KV0.delta_eq (W0 m ρ) c o h)

/-! ## One point of the second kernel -/

/-- Entry (r, o) of the tile at point t is entry (512·t + r, o) of the specification's result. -/
theorem point_eq (c : Dev nD) (t : Fin cfg1.N) (r : Fin 512) (o : Fin 1024) :
    (step1 (iblk1 (V3 m ρ) c 0 t) (iblk1 (V3 m ρ) c 1 t) (iblk1 (V3 m ρ) c 2 t) (iblk1 (V3 m ρ) c 3 t) (iblk1 (V3 m ρ) c 4 t)
        : S512x1024.Idx → EReal) (ix2 r o)
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (ix2 (⟨512 * t.val + r.val, by have := t.isLt; have h : cfg1.N = 32 := N_1; omega⟩ : Fin 16384) o) := by
  rw [Spec.G_apply]
  refine (Cert.KPay1.step1_apply (iblk1 (V3 m ρ) c 0 t) (iblk1 (V3 m ρ) c 1 t) (iblk1 (V3 m ρ) c 2 t) (iblk1 (V3 m ρ) c 3 t)
    (iblk1 (V3 m ρ) c 4 t) r o).trans ?_
  unfold Spec.out
  refine congrArg₂ (· + ·) (Finset.sum_congr rfl fun h _ => congrArg₂ (· * ·) ?_ ?_) ?_
  · refine congrArg (fun f => Spec.smx f h) (funext fun h' => ?_)
    unfold Spec.qq Spec.proj
    refine congrArg₂ (· + ·) (Finset.sum_congr rfl fun i _ => congrArg₂ (· * ·) ?_ ?_) ?_
    · rw [Cert.KBlocks.iblk1_x, V3_arg0]
    · rw [Cert.KBlocks.iblk1_wq]
      exact V3_v17 m ρ c i h'
    · rw [Cert.KBlocks.iblk1_bq]
      exact V3_v6 m ρ c h'
  · rw [Cert.KBlocks.iblk1_wn]
    exact V3_v25 m ρ c h o
  · rw [Cert.KBlocks.iblk1_bf, V3_arg4]

/-- What the second region's write-backs leave in the result buffer is the specification's result. -/
theorem result_eq (c : Dev nD) :
    ((dat1 (V3 m ρ) c).arrAt 5 cfg1.N : S16384x1024.Idx → EReal)
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  Cert.KBlocks.out1_final (V3 m ρ) c _ (point_eq m ρ c)

end Cert.KV1

end
-- ==== Proof.RefValue.lean ====
/-
  The reference's result, read index by index, is the specification's function of the five arguments.
-/
import proofs.«165204_j34668976013857_1_alg».proof.Proof.Gen.ReferenceIdeal.Read
import proofs.«165204_j34668976013857_1_alg».proof.Proof.Spec
import proofs.«165204_j34668976013857_1_alg».proof.Proof.LibPlainDot

noncomputable section

namespace Cert.RefValue

open Idealize.ShloMosaic Idealize.ShloMosaic.ValueIdx
open Cert.ReferenceIdeal Cert.ReferenceIdeal.Gen Cert.ReferenceIdeal.Read

/-- The word 0x3F800000 denotes the real 1. -/
theorem one_eq : Ideal.ofBits .f32 0x3F800000#32 = 1 := by
  simp [Ideal.ofBits, Ideal.ieee, -EReal.coe_mul]
  norm_num

/-- Two rank-2 (rank-1) indices with the same coordinates are equal. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

section Stages

variable (x0 : (⟨S16384x1024, .f32⟩ : BufTy).Contents (Elt Ideal)) (x1 : (⟨S3073x1024, .f32⟩ : BufTy).Contents (Elt Ideal))
  (x2 : (⟨S3073, .f32⟩ : BufTy).Contents (Elt Ideal)) (x3 : (⟨S1024x1024, .f32⟩ : BufTy).Contents (Elt Ideal))
  (x4 : (⟨S1024, .f32⟩ : BufTy).Contents (Elt Ideal))

/-- The five arguments as functions of their coordinates. -/
abbrev X : Fin 16384 → Fin 1024 → EReal := fun b k => x0 (ix2 b k)
abbrev W : Fin 3073 → Fin 1024 → EReal := fun j k => x1 (ix2 j k)
abbrev B : Fin 3073 → EReal := fun j => x2 (ix1 j)
abbrev Wf : Fin 1024 → Fin 1024 → EReal := fun o h => x3 (ix2 o h)
abbrev bf : Fin 1024 → EReal := fun o => x4 (ix1 o)

/-- The dense projection at (b, j). -/
theorem v4_eq (b : Fin 16384) (j : Fin 3073) :
    val_main_v4 (F := Ideal) x0 x1 x2 (ix2 b j) = Spec.proj (X x0) (W x1) (B x2) b j := by
  rw [val_main_v4_apply, val_main_v1_apply, val_main_v3_apply, val_main_v2_apply, Ideal.addf_def]
  unfold Spec.proj
  have e3 : idx_main_v2 (idx_main_v3 (ix2 b j)) = ix1 j := by idx1
  rw [e3]
  congr 1
  refine Finset.sum_congr rfl fun k _ => ?_
  rw [val_main_v0_apply]
  have e1 : lidx_main_v1 (ix2 b j) k = ix2 b k := by idx2
  have e2 : idx_main_v0 (ridx_main_v1 (ix2 b j) k) = ix2 j k := by idx2
  rw [e1, e2]

/-- Keys, values, queries and the learning-rate logit are slices of the projection. -/
theorem v5_eq (b : Fin 16384) (h : Fin 1024) :
    val_main_v5 (F := Ideal) x0 x1 x2 (ix2 b h) = Spec.kk (X x0) (W x1) (B x2) b h := by
  rw [val_main_v5_apply]
  have e : idx_main_v5 (ix2 b h) = ix2 b (⟨h.val, by omega⟩ : Fin 3073) := by idx2
  rw [e, v4_eq]
  rfl

theorem v6_eq (b : Fin 16384) (o : Fin 1024) :
    val_main_v6 (F := Ideal) x0 x1 x2 (ix2 b o) = Spec.vv (X x0) (W x1) (B x2) b o := by
  rw [val_main_v6_apply]
  have e : idx_main_v6 (ix2 b o) = ix2 b (⟨1024 + o.val, by omega⟩ : Fin 3073) := by idx2
  rw [e, v4_eq]
  rfl

theorem v7_eq (b : Fin 16384) (h : Fin 1024) :
    val_main_v7 (F := Ideal) x0 x1 x2 (ix2 b h) = Spec.qq (X x0) (W x1) (B x2) b h := by
  rw [val_main_v7_apply]
  have e : idx_main_v7 (ix2 b h) = ix2 b (⟨2048 + h.val, by omega⟩ : Fin 3073) := by idx2
  rw [e, v4_eq]
  rfl

theorem v8_eq (b : Fin 16384) :
    val_main_v8 (F := Ideal) x0 x1 x2 (ix2 b (0 : Fin 1)) = Spec.proj (X x0) (W x1) (B x2) b ⟨3072, by omega⟩ := by
  rw [val_main_v8_apply]
  have e : idx_main_v8 (ix2 b (0 : Fin 1)) = ix2 b (⟨3072, by omega⟩ : Fin 3073) := by idx2
  rw [e, v4_eq]

/-- The learning rate of row b: the logistic function spelled as 1 / (1 + exp(−z)). -/
theorem v14_eq (b : Fin 16384) :
    val_main_v14 (F := Ideal) x0 x1 x2 (ix2 b (0 : Fin 1)) = Spec.lr (X x0) (W x1) (B x2) b := by
  rw [val_main_v14_apply, val_main_v13_apply, val_main_cst_0_apply, val_main_v12_apply, val_main_v11_apply,
    val_main_cst_apply, val_main_v10_apply, val_main_v9_apply, v8_eq]
  simp only [Ideal.hostDivf_def, Ideal.addf_def, Ideal.hostUnary_exp_def, Ideal.hostNegf_def, Ideal.negf_def,
    Ideal.ofBits_def, one_eq]
  rfl

/-- The maximum over axis 1 from an initial word, at row b: the fold of max over the row's entries. -/
theorem rowmax_read (y : (⟨S16384x1024, .f32⟩ : BufTy).Contents (Elt Ideal)) (c : (⟨S_, .f32⟩ : BufTy).Contents (Elt Ideal))
    (b : Fin 16384) :
    (Host.reduce (FloatOps.maximumf (F := Ideal) (φ := .f32)) y c reducesTo_S16384x1024_S16384_d1 h_S_ : (⟨S16384, .f32⟩ : BufTy).Contents (Elt Ideal)) (ix1 b)
      = (Finset.univ : Finset (Fin 1024)).fold max (c (Shape.Idx.first h_S_)) (fun h => y (ix2 b h)) := by
  have hr : S16384x1024.Reduces [1] S16384 := by decide
  refine (Host.reduce_eq_fold_single (FloatOps.maximumf (F := Ideal) (φ := .f32)) y c reducesTo_S16384x1024_S16384_d1 hr h_S_ (ix1 b)).trans ?_
  have e : (y ∘ hr.lift (ix1 b)) = fun h : Fin 1024 => y (ix2 b h) := funext fun k => congrArg y (by idx2)
  rw [e]
  rfl

/-- The row maximum of the keys. -/
theorem v17_eq (b : Fin 16384) :
    val_main_v17 (F := Ideal) x0 x1 x2 (ix1 b) = Spec.rowMax (Spec.kk (X x0) (W x1) (B x2) b) := by
  rw [val_main_v17_apply, val_main_v16_apply, val_main_cst_2_apply]
  unfold val_main_v15
  rw [rowmax_read, val_main_cst_1_apply]
  simp only [v5_eq, Ideal.maximumf_def, Ideal.ofBits_def]
  rfl

/-- exp(k − max k) at (b, h). -/
theorem v21_eq (b : Fin 16384) (h : Fin 1024) :
    val_main_v21 (F := Ideal) x0 x1 x2 (ix2 b h)
      = Ideal.exp (Spec.kk (X x0) (W x1) (B x2) b h - Spec.rowMax (Spec.kk (X x0) (W x1) (B x2) b)) := by
  rw [val_main_v21_apply, val_main_v20_apply, val_main_v19_apply, val_main_v18_apply]
  have e : idx_main_v18 (idx_main_v19 (ix2 b h)) = ix1 b := by idx1
  rw [e, v17_eq, v5_eq]
  rfl

/-- The softmax denominator of the keys of row b. -/
theorem v22_eq (b : Fin 16384) :
    val_main_v22 (F := Ideal) x0 x1 x2 (ix1 b)
      = ∑ h' : Fin 1024, Ideal.exp (Spec.kk (X x0) (W x1) (B x2) b h' - Spec.rowMax (Spec.kk (X x0) (W x1) (B x2) b)) := by
  rw [val_main_v22_apply, val_main_cst_3_apply, Ideal.ofBits_def, Ideal.ofBits_zero_f32, zero_add]
  refine Finset.sum_congr rfl fun k _ => ?_
  have e : idx_main_v22 (ix1 b) k = ix2 b k := by idx2
  rw [e, v21_eq]

/-- The softmax of the keys at (b, h). -/
theorem v25_eq (b : Fin 16384) (h : Fin 1024) :
    val_main_v25 (F := Ideal) x0 x1 x2 (ix2 b h) = Spec.smx (Spec.kk (X x0) (W x1) (B x2) b) h := by
  rw [val_main_v25_apply, val_main_v24_apply, val_main_v23_apply]
  have e : idx_main_v23 (idx_main_v24 (ix2 b h)) = ix1 b := by idx1
  rw [e, v22_eq, v21_eq]
  rfl

/-- The fast weights read with the softmax of the keys. -/
theorem v30_eq (b : Fin 16384) (o : Fin 1024) :
    val_main_v30 (F := Ideal) x0 x1 x2 x3 x4 (ix2 b o) = Spec.vbar (X x0) (W x1) (B x2) (Wf x3) (bf x4) b o := by
  rw [val_main_v30_apply, val_main_v27_apply, val_main_v29_apply, val_main_v28_apply, Ideal.addf_def]
  unfold Spec.vbar
  have e3 : idx_main_v28 (idx_main_v29 (ix2 b o)) = ix1 o := by idx1
  rw [e3]
  refine congrArg₂ (· + ·) (Finset.sum_congr rfl fun k _ => ?_) rfl
  rw [val_main_v26_apply]
  have e1 : lidx_main_v27 (ix2 b o) k = ix2 b k := by idx2
  have e2 : idx_main_v26 (ridx_main_v27 (ix2 b o) k) = ix2 o k := by idx2
  rw [e1, e2, v25_eq]

/-- The delta rule's error term of row b at column o. -/
theorem v33_eq (b : Fin 16384) (o : Fin 1024) :
    val_main_v33 (F := Ideal) x0 x1 x2 x3 x4 (ix2 b o) = Spec.term (X x0) (W x1) (B x2) (Wf x3) (bf x4) b o := by
  rw [val_main_v33_apply, val_main_v32_apply, val_main_v31_apply]
  have e : idx_main_v32 (ix2 b o) = ix2 b (0 : Fin 1) := by idx2
  rw [e, v14_eq, v6_eq, v30_eq]
  rfl

/-- The logistic function of the keys, spelled as 1 / (1 + exp(−k)). -/
theorem v39_eq (b : Fin 16384) (h : Fin 1024) :
    val_main_v39 (F := Ideal) x0 x1 x2 (ix2 b h) = Ideal.logistic (Spec.kk (X x0) (W x1) (B x2) b h) := by
  rw [val_main_v39_apply, val_main_v38_apply, val_main_cst_5_apply, val_main_v37_apply, val_main_v36_apply,
    val_main_cst_4_apply, val_main_v35_apply, val_main_v34_apply, v5_eq]
  simp only [Ideal.hostDivf_def, Ideal.addf_def, Ideal.hostUnary_exp_def, Ideal.hostNegf_def, Ideal.negf_def,
    Ideal.ofBits_def, one_eq]
  rfl

/-- The update: the batch sum of term · logistic(k), divided by the batch size. -/
theorem v42_eq (o h : Fin 1024) :
    val_main_v42 (F := Ideal) x0 x1 x2 x3 x4 (ix2 o h) = Spec.deltaRef (X x0) (W x1) (B x2) (Wf x3) (bf x4) o h := by
  rw [val_main_v42_apply, val_main_v41_apply, val_main_cst_6_apply, val_main_v40_apply, Ideal.hostDivf_def,
    Ideal.ofBits_def]
  unfold Spec.deltaRef
  refine congrArg (Ideal.div · Spec.cB) (Finset.sum_congr rfl fun k _ => ?_)
  have e1 : lidx_main_v40 (ix2 o h) k = ix2 k o := by idx2
  have e2 : ridx_main_v40 (ix2 o h) k = ix2 k h := by idx2
  rw [e1, e2, v33_eq, v39_eq]

/-- The updated fast weights. -/
theorem v43_eq (o h : Fin 1024) :
    val_main_v43 (F := Ideal) x0 x1 x2 x3 x4 (ix2 o h) = Spec.Wn (X x0) (W x1) (B x2) (Wf x3) (bf x4) o h := by
  rw [val_main_v43_apply, v42_eq]
  rfl

/-- The row maximum of the queries. -/
theorem v46_eq (b : Fin 16384) :
    val_main_v46 (F := Ideal) x0 x1 x2 (ix1 b) = Spec.rowMax (Spec.qq (X x0) (W x1) (B x2) b) := by
  rw [val_main_v46_apply, val_main_v45_apply, val_main_cst_8_apply]
  unfold val_main_v44
  rw [rowmax_read, val_main_cst_7_apply]
  simp only [v7_eq, Ideal.maximumf_def, Ideal.ofBits_def]
  rfl

/-- exp(q − max q) at (b, h). -/
theorem v50_eq (b : Fin 16384) (h : Fin 1024) :
    val_main_v50 (F := Ideal) x0 x1 x2 (ix2 b h)
      = Ideal.exp (Spec.qq (X x0) (W x1) (B x2) b h - Spec.rowMax (Spec.qq (X x0) (W x1) (B x2) b)) := by
  rw [val_main_v50_apply, val_main_v49_apply, val_main_v48_apply, val_main_v47_apply]
  have e : idx_main_v47 (idx_main_v48 (ix2 b h)) = ix1 b := by idx1
  rw [e, v46_eq, v7_eq]
  rfl

/-- The softmax denominator of the queries of row b. -/
theorem v51_eq (b : Fin 16384) :
    val_main_v51 (F := Ideal) x0 x1 x2 (ix1 b)
      = ∑ h' : Fin 1024, Ideal.exp (Spec.qq (X x0) (W x1) (B x2) b h' - Spec.rowMax (Spec.qq (X x0) (W x1) (B x2) b)) := by
  rw [val_main_v51_apply, val_main_cst_9_apply, Ideal.ofBits_def, Ideal.ofBits_zero_f32, zero_add]
  refine Finset.sum_congr rfl fun k _ => ?_
  have e : idx_main_v51 (ix1 b) k = ix2 b k := by idx2
  rw [e, v50_eq]

/-- The softmax of the queries at (b, h). -/
theorem v54_eq (b : Fin 16384) (h : Fin 1024) :
    val_main_v54 (F := Ideal) x0 x1 x2 (ix2 b h) = Spec.smx (Spec.qq (X x0) (W x1) (B x2) b) h := by
  rw [val_main_v54_apply, val_main_v53_apply, val_main_v52_apply]
  have e : idx_main_v52 (idx_main_v53 (ix2 b h)) = ix1 b := by idx1
  rw [e, v51_eq, v50_eq]
  rfl

/-- The result: the updated fast weights read with the softmax of the queries. -/
theorem v59_eq (b : Fin 16384) (o : Fin 1024) :
    val_main_v59 (F := Ideal) x0 x1 x2 x3 x4 (ix2 b o) = Spec.out (X x0) (W x1) (B x2) (Wf x3) (bf x4) b o := by
  rw [val_main_v59_apply, val_main_v56_apply, val_main_v58_apply, val_main_v57_apply, Ideal.addf_def]
  unfold Spec.out
  have e3 : idx_main_v57 (idx_main_v58 (ix2 b o)) = ix1 o := by idx1
  rw [e3]
  refine congrArg₂ (· + ·) (Finset.sum_congr rfl fun k _ => ?_) rfl
  rw [val_main_v55_apply]
  have e1 : lidx_main_v56 (ix2 b o) k = ix2 b k := by idx2
  have e2 : idx_main_v55 (ridx_main_v56 (ix2 b o) k) = ix2 o k := by idx2
  rw [e1, e2, v54_eq, v43_eq]

end Stages

/-- The reference's result is the specification's function of the five arguments. -/
theorem ref_is_G (x0 : (⟨Cert.ReferenceIdeal.S16384x1024, .f32⟩ : BufTy).Contents (Elt Ideal))
    (x1 : (⟨Cert.ReferenceIdeal.S3073x1024, .f32⟩ : BufTy).Contents (Elt Ideal))
    (x2 : (⟨Cert.ReferenceIdeal.S3073, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v59 (F := Ideal) x0 x1 x2 x3 x4 = Cert.Spec.G x0 x1 x2 x3 x4 := by
  funext i
  obtain ⟨b, o, rfl⟩ : ∃ (b : Fin 16384) (o : Fin 1024), i = ix2 b o := ⟨i 0, i 1, eq_ix2 i⟩
  rw [Spec.G_apply]
  exact v59_eq x0 x1 x2 x3 x4 b o

end Cert.RefValue

end
-- ==== Proof.lean ====
/-
  The certificate's five claims, assembled.

  The kernel program is two kernels around host operations: the first accumulates, tile by tile over the batch, the
  delta-rule update of the fast weights, each error term scaled by 2^-14 before the products are summed; the host adds
  the update to the fast weights; the second reads them with the softmax of the queries. The reference computes the
  same update as one whole-batch product divided by 16384. Over the extended reals the two arrangements are one
  function of the five arguments (Spec.G): sums commute and associate, and multiplying by the non-negative real 2^-14
  distributes over any sum. The three programs run to the end, fault nowhere and leave their arguments as launched.
-/
import proofs.«165204_j34668976013857_1_alg».proof.Defs
import proofs.«165204_j34668976013857_1_alg».proof.Proof.Gen.Kernel
import proofs.«165204_j34668976013857_1_alg».proof.Proof.Gen.KernelIdeal
import proofs.«165204_j34668976013857_1_alg».proof.Proof.Gen.ReferenceIdeal
import proofs.«165204_j34668976013857_1_alg».proof.Proof.Gen.Pre_finite_inputs
import proofs.«165204_j34668976013857_1_alg».proof.Proof.Gen.ReferenceIdeal.Read
import proofs.«165204_j34668976013857_1_alg».proof.Proof.K.Run
import proofs.«165204_j34668976013857_1_alg».proof.Proof.KI.Run
import proofs.«165204_j34668976013857_1_alg».proof.Proof.KV1
import proofs.«165204_j34668976013857_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel program runs and keeps its arguments
  fun m ρ _ => Cert.Kernel.Hand.frame (F := Bits) m ρ,
  -- so does the idealized one
  fun m ρ _ => Cert.KernelIdeal.Hand.frame (F := Ideal) m ρ,
  -- the reference: its run with the result dropped
  fun m ρ _ => (θ_run Cert.ReferenceIdeal.defs _ _).mono (fun _ h c => (h c).2) (Cert.ReferenceIdeal.Value.run (F := Ideal) m ρ),
  -- the ideal pass rewrote nothing
  trivial,
  -- both idealized programs end with the specification's function of the arguments in their result
  fun m ρ m' ρ' _ hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      (θ_run Cert.KernelIdeal.defs _ _).mono (fun _ h c => ⟨(h c).1.trans (Cert.KV1.result_eq m ρ c), (h c).2⟩)
        (Cert.KernelIdeal.Hand.run_post (F := Ideal) m ρ),
      (θ_run Cert.ReferenceIdeal.defs _ _).mono
        (fun _ h c => ⟨by
            rw [(h c).1, Cert.ReferenceIdeal.Read.val_main_v59_eq, Cert.RefValue.ref_is_G, (hagree c).1, (hagree c).2.1,
              (hagree c).2.2.1, (hagree c).2.2.2.1, (hagree c).2.2.2.2], (h c).2⟩)
        (Cert.ReferenceIdeal.Value.run (F := Ideal) m' ρ')⟩⟩

end Cert.Proof

end
